-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩
abbrev S10000x1 : Shape := ⟨2, ![10000, 1]⟩
abbrev S1x1 : Shape := ⟨2, ![1, 1]⟩

abbrev nBuf : Space → Nat
  | .hbm => 85
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S50000x128, .f32⟩
  | .hbm, ⟨84, _⟩ => ⟨S50000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x1, .f32⟩
  | .local _ .vmem, ⟨23, _⟩ => ⟨S1, .f32⟩
  | .local _ .vmem, ⟨24, _⟩ => ⟨S10000x1, .f32⟩
  | .local _ .vmem, ⟨25, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1.size a ≤ S1.size a
  hwx4_2 : ∀ i : grid4.Coords, EltTy.bits .f32 = 32 ∨ (Rect.block (s := S1) S1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S50000x1.size a
  hwx4_3 : ∀ i : grid4.Coords, EltTy.bits .f32 = 32 ∨ (Rect.block (s := S50000x1) S10000x1.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x1, .f32⟩
  | .hbm, ⟨95, _⟩ => ⟨S1x1, .f32⟩
  | .hbm, ⟨96, _⟩ => ⟨S50000x1, .f32⟩
  | .hbm, ⟨97, _⟩ => ⟨S50000x1, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S_, .f32⟩
  | .hbm, ⟨104, _⟩ => ⟨S50000x1, .f32⟩
  | .hbm, ⟨105, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Stages.lean ====
import proofs.«124141_j29609504539480_1_alg».proof.Proof.Gen.ReferenceIdeal

/-!
The reference network, cut into the stages the kernel's program is cut into.

A graph-convolution layer is: a dense product `h = x · W`; an aggregation over the edge list with self loops,
`agg h = Σ_{edges e into node v} norm e · h[src e]`; a bias added along the feature axis and a rectifier.  Two such
layers are followed by a dense product with a single column, a bias, and the logistic function written out as
`1 / (1 + exp (-z))`.  The edge list enters only through three arrays computed once from the edge index: the
source node of each edge, its destination node, and its weight `norm`.

Each stage is stated over the reference program's own operations, so that both programs' host stretches are the
stages by unfolding alone.
-/

noncomputable section

namespace Cert.ReferenceIdeal.Stage

open Cert.ReferenceIdeal Cert.ReferenceIdeal.Facts₀ Idealize.ShloMosaic

variable {F : FTy → Type} [FloatOps F]

/-- The self loops: the nodes `0, 1, …, 49999`. -/
def loops : (⟨S50000, .i32⟩ : BufTy).Contents (Elt F) := iotaInDim S50000 32 0

/-- The source node of every edge: the first row of the edge index followed by the self loops. -/
def src (e : (⟨S2x800000, .i32⟩ : BufTy).Contents (Elt F)) : (⟨S850000, .i32⟩ : BufTy).Contents (Elt F) :=
  concatenate S850000 0
    [⟨S800000, shapeCast _ (extractStridedSlice S1x800000 ![0, 0] e slices_S2x800000_S1x800000_0_0) shapeCasts_S1x800000_S800000⟩,
      ⟨S50000, loops (F := F)⟩] concatenates_S800000_S50000_S850000_d0

/-- The destination node of every edge: the second row of the edge index followed by the self loops. -/
def dst (e : (⟨S2x800000, .i32⟩ : BufTy).Contents (Elt F)) : (⟨S850000, .i32⟩ : BufTy).Contents (Elt F) :=
  concatenate S850000 0
    [⟨S800000, shapeCast _ (extractStridedSlice S1x800000 ![1, 0] e slices_S2x800000_S1x800000_1_0) shapeCasts_S1x800000_S800000⟩,
      ⟨S50000, loops (F := F)⟩] concatenates_S800000_S50000_S850000_d0

/-- The in-degree of every node: a one added at the destination of every edge. -/
def deg (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- `deg^(-1/2)`, and zero where the degree is not positive. -/
def dinv (d : (⟨S850000, .i32⟩ : BufTy).Contents (Elt F)) : (⟨S50000, .f32⟩ : BufTy).Contents (Elt F) :=
  select (cmpf .ogt (deg d) (broadcastInDim S50000 ![] bcast_S_S50000 (constant S_ .f32 0x00000000#32)))
    (Host.rsqrt (deg d))
    (broadcastInDim S50000 ![] bcast_S_S50000 (constant S_ .f32 0x00000000#32))

/-- A node index read as a row number: a negative index counts from the end. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32)))
    (addi s (broadcastInDim S850000 ![] bcast_S_S850000 (constantI S_ 32 50000#32))) s

/-- The weight of every edge from its end points: `deg^(-1/2)` at its source times `deg^(-1/2)` at its destination. -/
def normOf (s d : (⟨S850000, .i32⟩ : BufTy).Contents (Elt F)) : (⟨S850000, .f32⟩ : BufTy).Contents (Elt F) :=
  mulf
    (Host.gather gather_S50000_S850000x1_S850000_n_0_n_n_0_1_1 (dinv d) (broadcastInDim S850000x1 ![0] bcast_S850000_S850000x1_0 (wrap s)))
    (Host.gather gather_S50000_S850000x1_S850000_n_0_n_n_0_1_1 (dinv d) (broadcastInDim S850000x1 ![0] bcast_S850000_S850000x1_0 (wrap d)))

/-- The weight of every edge, from the edge index. -/
def norm (e : (⟨S2x800000, .i32⟩ : BufTy).Contents (Elt F)) : (⟨S850000, .f32⟩ : BufTy).Contents (Elt F) :=
  normOf (src e) (dst e)

/-- The dense product `x · w` of a `50000 × 128` array with a `128 × 128` matrix. -/
def dense (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- The aggregation: row `s e` of `h` (a negative index counted from the end) scaled by `n e`, added into row
    `d e` of a zero array, over all edges `e`. -/
def agg (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf
      (Host.gather gather_S50000x128_S850000x1_S850000x128_1_0_n_n_0_1_1128 h
        (broadcastInDim S850000x1 ![0] bcast_S850000_S850000x1_0 (wrap s)))
      (broadcastInDim S850000x128 ![0, 1] bcast_S850000x1_S850000x128_0_1
        (broadcastInDim S850000x1 ![0] bcast_S850000_S850000x1_0 n)))

/-- The bias `b` added to every row of `a`, then the maximum with zero. -/
def biasRelu (a : (⟨S50000x128, .f32⟩ : BufTy).Contents (Elt F)) (b : (⟨S128, .f32⟩ : BufTy).Contents (Elt F)) :
    (⟨S50000x128, .f32⟩ : BufTy).Contents (Elt F) :=
  maximumf
    (addf a (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output layer: `1 / (1 + exp (-(h · w + b)))` with a single output column. -/
def head (h : (⟨S50000x128, .f32⟩ : BufTy).Contents (Elt F)) (w : (⟨S128x1, .f32⟩ : BufTy).Contents (Elt F))
    (b : (⟨S1, .f32⟩ : BufTy).Contents (Elt F)) : (⟨S50000x1, .f32⟩ : BufTy).Contents (Elt F) :=
  Host.divf (broadcastInDim S50000x1 ![] bcast_S_S50000x1 (constant S_ .f32 0x3F800000#32))
    (addf (broadcastInDim S50000x1 ![] bcast_S_S50000x1 (constant S_ .f32 0x3F800000#32))
      (Host.exp (Host.negf
        (addf (Host.dotGeneral dot_S50000x128_S128x1_S50000x1_1_0_0_1_n_n none h w)
          (broadcastInDim S50000x1 ![0, 1] bcast_S1x1_S50000x1_0_1 (broadcastInDim S1x1 ![1] bcast_S1_S1x1_1 b))))))

/-- The whole network as the composition of its stages. -/
def net (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x1, .f32⟩ : BufTy).Contents (Elt F)) (x7 : (⟨S1, .f32⟩ : BufTy).Contents (Elt F)) :
    (⟨S50000x1, .f32⟩ : BufTy).Contents (Elt F) :=
  head (biasRelu (agg (dense (biasRelu (agg (dense x0 x2) (src x1) (dst x1) (norm x1)) x3) x4) (src x1) (dst x1) (norm x1)) x5) x6 x7

end Cert.ReferenceIdeal.Stage

end
-- ==== Proof.RefNet.lean ====
import proofs.«124141_j29609504539480_1_alg».proof.Proof.RefRun
import proofs.«124141_j29609504539480_1_alg».proof.Proof.Stages
import Idealize.ShloMosaic.Lib.StableHlo.Run
import Idealize.ShloMosaic.Lib.Pipeline.Frame

/-!
The reference program's run, stated over the stages of the network.

The reference's @main is a straight line of 98 host operations.  Cut at the boundaries of the network's stages it is
nine lines run one after the other: the edge arrays (source and destination of every edge, self loops appended), the
edge weights, and then for each of the two layers a dense product, an aggregation over the edges and a bias with a
rectifier, and at the end the output layer.  Each line, read back at its result buffer from ANY contents, is its
stage applied to the contents of the buffers it reads; a buffer a line does not write keeps its contents across it.
Threading the nine lines from the launch contents gives the result buffer as the whole network of the eight
arguments, and the arguments unchanged.
-/

set_option maxRecDepth 16384

noncomputable section

namespace Cert.ReferenceIdeal.RefNet

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## The nine lines -/

/-- The edge arrays' operations: the self loops, and each row of the edge index cut out, flattened and followed by the self loops. -/
def prep : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers `prep` writes. -/
abbrev prepW : List (Ref sig .tc) := [main_v0, main_v1, main_v2, main_v3, main_v4, main_v5, main_v6]

/-- The edge weights' operations: the in-degree by a scatter of ones, its inverse square root where it is positive, read at each edge's two end points (a negative index counted from the end) and multiplied. -/
def weights : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The buffers `weights` writes. -/
abbrev weightsW : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

/-- The first layer's dense product. -/
def dense1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers `dense1` writes. -/
abbrev dense1W : List (Ref sig .tc) := [main_v30]

/-- The first layer's aggregation over the edges. -/
def agg1 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffers `agg1` writes. -/
abbrev agg1W : List (Ref sig .tc) := [main_c_6, main_v31, main_v32, main_c_7, main_v33, main_v34, main_v35, main_v36, main_v37, main_v38, main_v39, main_v40, main_cst_8, main_v41, main_v42, main_v43]

/-- The first layer's bias and rectifier. -/
def act1 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The buffers `act1` writes. -/
abbrev act1W : List (Ref sig .tc) := [main_v44, main_v45, main_v46, main_call1_cst, main_call1_v0, main_v47]

/-- The second layer's dense product. -/
def dense2 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers `dense2` writes. -/
abbrev dense2W : List (Ref sig .tc) := [main_v48]

/-- The second layer's aggregation over the edges. -/
def agg2 : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffers `agg2` writes. -/
abbrev agg2W : List (Ref sig .tc) := [main_c_9, main_v49, main_v50, main_c_10, main_v51, main_v52, main_v53, main_v54, main_v55, main_v56, main_v57, main_v58, main_cst_11, main_v59, main_v60, main_v61]

/-- The second layer's bias and rectifier. -/
def act2 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- The buffers `act2` writes. -/
abbrev act2W : List (Ref sig .tc) := [main_v62, main_v63, main_v64, main_call2_cst, main_call2_v0, main_v65]

/-- The output layer's operations: the product with one column, the bias, and the logistic function written out. -/
def headOps : List (HloOp τ sig (Elt F)) :=
  [ binary main_v65 main_arg6 main_v66 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg7 main_v67 (broadcastInDim S1x1 ![1] bcast_S1_S1x1_1 : (⟨S1, .f32⟩ : BufTy).Contents (Elt F) → (⟨S1x1, .f32⟩ : BufTy).Contents (Elt F)),
    unary main_v67 main_v68 (broadcastInDim S50000x1 ![0, 1] bcast_S1x1_S50000x1_0_1 : (⟨S1x1, .f32⟩ : BufTy).Contents (Elt F) → (⟨S50000x1, .f32⟩ : BufTy).Contents (Elt F)),
    binary main_v66 main_v68 main_v69 (addf : (⟨S50000x1, .f32⟩ : BufTy).Contents (Elt F) → (⟨S50000x1, .f32⟩ : BufTy).Contents (Elt F) → (⟨S50000x1, .f32⟩ : BufTy).Contents (Elt F)),
    unary main_v69 main_v70 (Host.negf : (⟨S50000x1, .f32⟩ : BufTy).Contents (Elt F) → (⟨S50000x1, .f32⟩ : BufTy).Contents (Elt F)),
    unary main_v70 main_v71 (Host.exp : (⟨S50000x1, .f32⟩ : BufTy).Contents (Elt F) → (⟨S50000x1, .f32⟩ : BufTy).Contents (Elt F)),
    nullary main_cst_12 (constant S_ .f32 0x3F800000#32),
    unary main_cst_12 main_v72 (broadcastInDim S50000x1 ![] bcast_S_S50000x1 : (⟨S_, .f32⟩ : BufTy).Contents (Elt F) → (⟨S50000x1, .f32⟩ : BufTy).Contents (Elt F)),
    binary main_v72 main_v71 main_v73 (addf : (⟨S50000x1, .f32⟩ : BufTy).Contents (Elt F) → (⟨S50000x1, .f32⟩ : BufTy).Contents (Elt F) → (⟨S50000x1, .f32⟩ : BufTy).Contents (Elt F)),
    nullary main_cst_13 (constant S_ .f32 0x3F800000#32),
    unary main_cst_13 main_v74 (broadcastInDim S50000x1 ![] bcast_S_S50000x1 : (⟨S_, .f32⟩ : BufTy).Contents (Elt F) → (⟨S50000x1, .f32⟩ : BufTy).Contents (Elt F)),
    binary main_v74 main_v73 main_v75 (Host.divf : (⟨S50000x1, .f32⟩ : BufTy).Contents (Elt F) → (⟨S50000x1, .f32⟩ : BufTy).Contents (Elt F) → (⟨S50000x1, .f32⟩ : BufTy).Contents (Elt F)) ]

/-- The buffers `headOps` writes. -/
abbrev headOpsW : List (Ref sig .tc) := [main_v66, main_v67, main_v68, main_v69, main_v70, main_v71, main_cst_12, main_v72, main_v73, main_cst_13, main_v74, main_v75]

/-- @main's operations are the nine lines in order. -/
theorem ops_eq : (ops : List (HloOp τ sig (Elt F))) =
    prep ++ (weights ++ (dense1 ++ (agg1 ++ (act1 ++ (dense2 ++ (agg2 ++ (act2 ++ headOps))))))) := rfl

/-! ## What a line leaves alone -/

/-- Every operation of a literal line writes a buffer of the line's list of written buffers. -/
local macro "writes_sub" line:ident : tactic => `(tactic| (
  dsimp only [$line:ident]
  simp only [List.Forall, nullary_writes, unary_writes, binary_writes, ternary_writes, reshape_writes,
    Finset.singleton_subset_iff, List.map_cons, List.map_nil, List.toFinset_cons, List.toFinset_nil,
    Finset.mem_insert, Finset.mem_singleton, true_or, or_true, and_self]))

theorem prep_keep (W : Valuation τ sig (Elt F)) {r : Ref sig .tc} (hr : r ∉ (prepW : List (Ref sig .tc))) :
    after prep W (Proc.devRef .tc r) = W (Proc.devRef .tc r) :=
  after_of_writes_sub prep W (by writes_sub prep) hr

theorem weights_keep (W : Valuation τ sig (Elt F)) {r : Ref sig .tc} (hr : r ∉ (weightsW : List (Ref sig .tc))) :
    after weights W (Proc.devRef .tc r) = W (Proc.devRef .tc r) :=
  after_of_writes_sub weights W (by writes_sub weights) hr

theorem dense1_keep (W : Valuation τ sig (Elt F)) {r : Ref sig .tc} (hr : r ∉ (dense1W : List (Ref sig .tc))) :
    after dense1 W (Proc.devRef .tc r) = W (Proc.devRef .tc r) :=
  after_of_writes_sub dense1 W (by writes_sub dense1) hr

theorem agg1_keep (W : Valuation τ sig (Elt F)) {r : Ref sig .tc} (hr : r ∉ (agg1W : List (Ref sig .tc))) :
    after agg1 W (Proc.devRef .tc r) = W (Proc.devRef .tc r) :=
  after_of_writes_sub agg1 W (by writes_sub agg1) hr

theorem act1_keep (W : Valuation τ sig (Elt F)) {r : Ref sig .tc} (hr : r ∉ (act1W : List (Ref sig .tc))) :
    after act1 W (Proc.devRef .tc r) = W (Proc.devRef .tc r) :=
  after_of_writes_sub act1 W (by writes_sub act1) hr

theorem dense2_keep (W : Valuation τ sig (Elt F)) {r : Ref sig .tc} (hr : r ∉ (dense2W : List (Ref sig .tc))) :
    after dense2 W (Proc.devRef .tc r) = W (Proc.devRef .tc r) :=
  after_of_writes_sub dense2 W (by writes_sub dense2) hr

theorem agg2_keep (W : Valuation τ sig (Elt F)) {r : Ref sig .tc} (hr : r ∉ (agg2W : List (Ref sig .tc))) :
    after agg2 W (Proc.devRef .tc r) = W (Proc.devRef .tc r) :=
  after_of_writes_sub agg2 W (by writes_sub agg2) hr

theorem act2_keep (W : Valuation τ sig (Elt F)) {r : Ref sig .tc} (hr : r ∉ (act2W : List (Ref sig .tc))) :
    after act2 W (Proc.devRef .tc r) = W (Proc.devRef .tc r) :=
  after_of_writes_sub act2 W (by writes_sub act2) hr

theorem headOps_keep (W : Valuation τ sig (Elt F)) {r : Ref sig .tc} (hr : r ∉ (headOpsW : List (Ref sig .tc))) :
    after headOps W (Proc.devRef .tc r) = W (Proc.devRef .tc r) :=
  after_of_writes_sub headOps W (by writes_sub headOps) hr

/-! ## What a line computes -/

/-- The source nodes: the edge index's first row, then the self loops. -/
theorem prep_src (W : Valuation τ sig (Elt F)) :
    after prep W (Proc.devRef .tc main_v3) = Stage.src (F := F) (W (Proc.devRef .tc main_arg1)) := by
  dsimp only [prep]
  after_results
  rfl

/-- The destination nodes: the edge index's second row, then the self loops. -/
theorem prep_dst (W : Valuation τ sig (Elt F)) :
    after prep W (Proc.devRef .tc main_v6) = Stage.dst (F := F) (W (Proc.devRef .tc main_arg1)) := by
  dsimp only [prep]
  after_results
  rfl

/-- The edge weights from the two edge arrays. -/
theorem weights_norm (W : Valuation τ sig (Elt F)) :
    after weights W (Proc.devRef .tc main_v29) = Stage.normOf (F := F) (W (Proc.devRef .tc main_v3)) (W (Proc.devRef .tc main_v6)) := by
  dsimp only [weights]
  after_results_simp <;> (try simp only [TRef.ofBuf, TRef.toBuf, cast_eq]) <;> rfl

/-- The first dense product. -/
theorem dense1_eq (W : Valuation τ sig (Elt F)) :
    after dense1 W (Proc.devRef .tc main_v30) = Stage.dense (F := F) (W (Proc.devRef .tc main_arg0)) (W (Proc.devRef .tc main_arg2)) := by
  dsimp only [dense1]
  after_results
  rfl

/-- The first aggregation. -/
theorem agg1_eq (W : Valuation τ sig (Elt F)) :
    after agg1 W (Proc.devRef .tc main_v43) = Stage.agg (F := F) (W (Proc.devRef .tc main_v30)) (W (Proc.devRef .tc main_v3)) (W (Proc.devRef .tc main_v6)) (W (Proc.devRef .tc main_v29)) := by
  dsimp only [agg1]
  after_results_simp <;> (try simp only [TRef.ofBuf, TRef.toBuf, cast_eq]) <;> rfl

/-- The first bias and rectifier. -/
theorem act1_eq (W : Valuation τ sig (Elt F)) :
    after act1 W (Proc.devRef .tc main_v47) = Stage.biasRelu (F := F) (W (Proc.devRef .tc main_v43)) (W (Proc.devRef .tc main_arg3)) := by
  dsimp only [act1]
  after_results_simp <;> (try simp only [TRef.ofBuf, TRef.toBuf, cast_eq]) <;> rfl

/-- The second dense product. -/
theorem dense2_eq (W : Valuation τ sig (Elt F)) :
    after dense2 W (Proc.devRef .tc main_v48) = Stage.dense (F := F) (W (Proc.devRef .tc main_v47)) (W (Proc.devRef .tc main_arg4)) := by
  dsimp only [dense2]
  after_results
  rfl

/-- The second aggregation. -/
theorem agg2_eq (W : Valuation τ sig (Elt F)) :
    after agg2 W (Proc.devRef .tc main_v61) = Stage.agg (F := F) (W (Proc.devRef .tc main_v48)) (W (Proc.devRef .tc main_v3)) (W (Proc.devRef .tc main_v6)) (W (Proc.devRef .tc main_v29)) := by
  dsimp only [agg2]
  after_results_simp <;> (try simp only [TRef.ofBuf, TRef.toBuf, cast_eq]) <;> rfl

/-- The second bias and rectifier. -/
theorem act2_eq (W : Valuation τ sig (Elt F)) :
    after act2 W (Proc.devRef .tc main_v65) = Stage.biasRelu (F := F) (W (Proc.devRef .tc main_v61)) (W (Proc.devRef .tc main_arg5)) := by
  dsimp only [act2]
  after_results_simp <;> (try simp only [TRef.ofBuf, TRef.toBuf, cast_eq]) <;> rfl

/-- The output layer. -/
theorem head_eq (W : Valuation τ sig (Elt F)) :
    after headOps W (Proc.devRef .tc main_v75) = Stage.head (F := F) (W (Proc.devRef .tc main_v65)) (W (Proc.devRef .tc main_arg6)) (W (Proc.devRef .tc main_arg7)) := by
  dsimp only [headOps]
  after_results
  rfl

/-! ## The nine lines threaded -/

/-- A buffer none of the nine lines writes holds at the end what it held at the start. -/
theorem ops_keep (V : Valuation τ sig (Elt F)) {r : Ref sig .tc}
    (h1 : r ∉ (prepW : List (Ref sig .tc)))
    (h2 : r ∉ (weightsW : List (Ref sig .tc)))
    (h3 : r ∉ (dense1W : List (Ref sig .tc)))
    (h4 : r ∉ (agg1W : List (Ref sig .tc)))
    (h5 : r ∉ (act1W : List (Ref sig .tc)))
    (h6 : r ∉ (dense2W : List (Ref sig .tc)))
    (h7 : r ∉ (agg2W : List (Ref sig .tc)))
    (h8 : r ∉ (act2W : List (Ref sig .tc)))
    (h9 : r ∉ (headOpsW : List (Ref sig .tc))) :
    after ops V (Proc.devRef .tc r) = V (Proc.devRef .tc r) := by
  rw [ops_eq]
  simp only [after_append]
  rw [headOps_keep _ h9, act2_keep _ h8, agg2_keep _ h7, dense2_keep _ h6, act1_keep _ h5, agg1_keep _ h4, dense1_keep _ h3, weights_keep _ h2, prep_keep _ h1]

/-- The result buffer after all the operations: the network of the eight arguments. -/
theorem net_eq (V : Valuation τ sig (Elt F)) :
    after ops V (Proc.devRef .tc main_v75) = Stage.net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq]
  simp only [after_append]
  rw [head_eq, act2_eq, act2_keep (r := main_arg6) _ (by decide), act2_keep (r := main_arg7) _ (by decide)]
  rw [agg2_eq, agg2_keep (r := main_arg5) _ (by decide), agg2_keep (r := main_arg6) _ (by decide), agg2_keep (r := main_arg7) _ (by decide)]
  rw [dense2_eq, dense2_keep (r := main_v3) _ (by decide), dense2_keep (r := main_v6) _ (by decide), dense2_keep (r := main_v29) _ (by decide), dense2_keep (r := main_arg5) _ (by decide), dense2_keep (r := main_arg6) _ (by decide), dense2_keep (r := main_arg7) _ (by decide)]
  rw [act1_eq, act1_keep (r := main_v3) _ (by decide), act1_keep (r := main_v6) _ (by decide), act1_keep (r := main_v29) _ (by decide), act1_keep (r := main_arg4) _ (by decide), act1_keep (r := main_arg5) _ (by decide), act1_keep (r := main_arg6) _ (by decide), act1_keep (r := main_arg7) _ (by decide)]
  rw [agg1_eq, agg1_keep (r := main_v3) _ (by decide), agg1_keep (r := main_v6) _ (by decide), agg1_keep (r := main_v29) _ (by decide), agg1_keep (r := main_arg3) _ (by decide), agg1_keep (r := main_arg4) _ (by decide), agg1_keep (r := main_arg5) _ (by decide), agg1_keep (r := main_arg6) _ (by decide), agg1_keep (r := main_arg7) _ (by decide)]
  rw [dense1_eq, dense1_keep (r := main_v3) _ (by decide), dense1_keep (r := main_v6) _ (by decide), dense1_keep (r := main_v29) _ (by decide), dense1_keep (r := main_arg3) _ (by decide), dense1_keep (r := main_arg4) _ (by decide), dense1_keep (r := main_arg5) _ (by decide), dense1_keep (r := main_arg6) _ (by decide), dense1_keep (r := main_arg7) _ (by decide)]
  rw [weights_norm, weights_keep (r := main_v3) _ (by decide), weights_keep (r := main_v6) _ (by decide), weights_keep (r := main_arg0) _ (by decide), weights_keep (r := main_arg2) _ (by decide), weights_keep (r := main_arg3) _ (by decide), weights_keep (r := main_arg4) _ (by decide), weights_keep (r := main_arg5) _ (by decide), weights_keep (r := main_arg6) _ (by decide), weights_keep (r := main_arg7) _ (by decide)]
  rw [prep_src, prep_dst, prep_keep (r := main_arg0) _ (by decide), prep_keep (r := main_arg2) _ (by decide), prep_keep (r := main_arg3) _ (by decide), prep_keep (r := main_arg4) _ (by decide), prep_keep (r := main_arg5) _ (by decide), prep_keep (r := main_arg6) _ (by decide), prep_keep (r := main_arg7) _ (by decide)]
  rfl

/-- On every device, for any float values, from any memory with zero counters: every weakly fair execution of
    @main terminates with the result buffer at the network of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = Stage.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v75).trans (net_eq _),
      (h c main_arg0).trans (ops_keep _ (by decide) (by decide) (by decide) (by decide) (by decide) (by decide) (by decide) (by decide) (by decide)),
      (h c main_arg1).trans (ops_keep _ (by decide) (by decide) (by decide) (by decide) (by decide) (by decide) (by decide) (by decide) (by decide)),
      (h c main_arg2).trans (ops_keep _ (by decide) (by decide) (by decide) (by decide) (by decide) (by decide) (by decide) (by decide) (by decide)),
      (h c main_arg3).trans (ops_keep _ (by decide) (by decide) (by decide) (by decide) (by decide) (by decide) (by decide) (by decide) (by decide)),
      (h c main_arg4).trans (ops_keep _ (by decide) (by decide) (by decide) (by decide) (by decide) (by decide) (by decide) (by decide) (by decide)),
      (h c main_arg5).trans (ops_keep _ (by decide) (by decide) (by decide) (by decide) (by decide) (by decide) (by decide) (by decide) (by decide)),
      (h c main_arg6).trans (ops_keep _ (by decide) (by decide) (by decide) (by decide) (by decide) (by decide) (by decide) (by decide) (by decide)),
      (h c main_arg7).trans (ops_keep _ (by decide) (by decide) (by decide) (by decide) (by decide) (by decide) (by decide) (by decide) (by decide))⟩)
    (run_seq scopedRefs_eq scopedSems_eq defs main (fun _ => ops) main_eq (fun _ => ops_sub) m ρ)

end Cert.ReferenceIdeal.RefNet

end
-- ==== Proof.Keep.lean ====
import proofs.«124141_j29609504539480_1_alg».proof.Proof.Gen.KernelIdeal.Frame

/-!
Buffers that a segment of the program does not write keep their contents across it.

The program is a sequence of host stretches and kernel regions; the contents at each boundary are a fold from the
launch memory.  An argument array is written by nothing, so at every boundary it holds what it held at launch; the
three edge arrays (source, destination, weight) are written once, before the first region, and are read again by
both aggregations, so at those later boundaries they hold what they held at the first region's entry.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- A host stretch leaves every buffer none of its operations writes. -/
local macro "host_keep" ops:ident : tactic => `(tactic| (
  refine (StableHlo.after_of_forall_not_mem _ _ (List.forall_iff_forall_mem.mp ?_)).trans ?_
  · simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- One boundary back: a region leaves every buffer that is not one of its windows' arrays, a host stretch every
    buffer it does not write. -/
local macro "back" : tactic => `(tactic| first
  | exact rfl
  | refine (W10_of_ne _ _ _ _ (by decide)).trans ?_
  | refine (W9_of_ne _ _ _ _ (by decide)).trans ?_
  | host_keep hostOps3
  | refine (W7_of_ne _ _ _ _ (by decide)).trans ?_
  | refine (W6_of_ne _ _ _ _ (by decide)).trans ?_
  | host_keep hostOps1
  | refine (W4_of_ne _ _ _ _ (by decide)).trans ?_
  | host_keep hostOps0_2
  | host_keep hostOps0_1
  | host_keep hostOps0)

local macro "walk" : tactic => `(tactic| (repeat back))

/-! ## The arguments, at the boundary where a region reads them -/

theorem W3_arg0 (c : Dev nD) : W3 m ρ c (Proc.devRef .tc main_arg0) = m ((c : Thread nD τ).loc main_arg0) := by walk
theorem W3_arg2 (c : Dev nD) : W3 m ρ c (Proc.devRef .tc main_arg2) = m ((c : Thread nD τ).loc main_arg2) := by walk
theorem W5_arg3 (c : Dev nD) : W5 m ρ c (Proc.devRef .tc main_arg3) = m ((c : Thread nD τ).loc main_arg3) := by walk
theorem W6_arg4 (c : Dev nD) : W6 m ρ c (Proc.devRef .tc main_arg4) = m ((c : Thread nD τ).loc main_arg4) := by walk
theorem W8_arg5 (c : Dev nD) : W8 m ρ c (Proc.devRef .tc main_arg5) = m ((c : Thread nD τ).loc main_arg5) := by walk
theorem W9_arg6 (c : Dev nD) : W9 m ρ c (Proc.devRef .tc main_arg6) = m ((c : Thread nD τ).loc main_arg6) := by walk
theorem W9_arg7 (c : Dev nD) : W9 m ρ c (Proc.devRef .tc main_arg7) = m ((c : Thread nD τ).loc main_arg7) := by walk

/-! ## The edge arrays, where the aggregations read them -/

theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)

theorem W7_v3 (c : Dev nD) : W7 m ρ c (Proc.devRef .tc main_v3) = W3 m ρ c (Proc.devRef .tc main_v3) := by
  refine (W7_of_ne m ρ c main_v3 (by decide)).trans ((W6_of_ne m ρ c main_v3 (by decide)).trans ?_)
  host_keep hostOps1
  exact W4_of_ne m ρ c main_v3 (by decide)
theorem W7_v6 (c : Dev nD) : W7 m ρ c (Proc.devRef .tc main_v6) = W3 m ρ c (Proc.devRef .tc main_v6) := by
  refine (W7_of_ne m ρ c main_v6 (by decide)).trans ((W6_of_ne m ρ c main_v6 (by decide)).trans ?_)
  host_keep hostOps1
  exact W4_of_ne m ρ c main_v6 (by decide)
theorem W7_v29 (c : Dev nD) : W7 m ρ c (Proc.devRef .tc main_v29) = W3 m ρ c (Proc.devRef .tc main_v29) := by
  refine (W7_of_ne m ρ c main_v29 (by decide)).trans ((W6_of_ne m ρ c main_v29 (by decide)).trans ?_)
  host_keep hostOps1
  exact W4_of_ne m ρ c main_v29 (by decide)

end Cert.KernelIdeal.Val

end
-- ==== Proof.Host.lean ====
import proofs.«124141_j29609504539480_1_alg».proof.Proof.Gen.KernelIdeal.Frame
import proofs.«124141_j29609504539480_1_alg».proof.Proof.Stages

/-!
The host stretches of the kernel's program compute what the reference's stages compute.

Before the first region the program builds, from the edge index alone, the source and destination node of every edge
(with the self loops appended) and the edge weights; between the regions it aggregates a region's output over the
edges.  These are the reference's own host operations, in the same order: reading each stretch's result buffer back
through the fold of its operations gives the reference's stage applied to the buffers the stretch reads.  Each
stretch is read from arbitrary contents `W` of the buffers, and the stretches are then joined.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable {F : FTy → Type} [FloatOps F]

section Stretches

variable (W : Valuation τ sig (Elt F))

/-! ### The first stretch: the edge lists, the degree, its inverse square root -/

set_option maxHeartbeats 2000000 in
theorem first_src :
    StableHlo.after hostOps0 W (Proc.devRef .tc main_v3) = Cert.ReferenceIdeal.Stage.src (F := F) (W (Proc.devRef .tc main_arg1)) := by
  dsimp only [hostOps0]
  after_results
  rfl

set_option maxHeartbeats 2000000 in
theorem first_dst :
    StableHlo.after hostOps0 W (Proc.devRef .tc main_v6) = Cert.ReferenceIdeal.Stage.dst (F := F) (W (Proc.devRef .tc main_arg1)) := by
  dsimp only [hostOps0]
  after_results
  rfl

set_option maxHeartbeats 2000000 in
/-- Where the degree is positive. -/
theorem first_pos :
    StableHlo.after hostOps0 W (Proc.devRef .tc main_v12)
      = cmpf .ogt (Cert.ReferenceIdeal.Stage.deg (F := F) (Cert.ReferenceIdeal.Stage.dst (W (Proc.devRef .tc main_arg1))))
          (broadcastInDim Cert.ReferenceIdeal.S50000 ![] Cert.ReferenceIdeal.Facts₀.bcast_S_S50000 (constant Cert.ReferenceIdeal.S_ .f32 0x00000000#32)) := by
  dsimp only [hostOps0]
  after_results
  rfl

set_option maxHeartbeats 2000000 in
/-- The inverse square root of the degree. -/
theorem first_rsqrt :
    StableHlo.after hostOps0 W (Proc.devRef .tc main_v13)
      = Host.rsqrt (Cert.ReferenceIdeal.Stage.deg (F := F) (Cert.ReferenceIdeal.Stage.dst (W (Proc.devRef .tc main_arg1)))) := by
  dsimp only [hostOps0]
  after_results
  rfl

set_option maxHeartbeats 2000000 in
/-- The zero the selection falls back to. -/
theorem first_zero :
    StableHlo.after hostOps0 W (Proc.devRef .tc main_cst_2) = constant (F := F) Cert.ReferenceIdeal.S_ .f32 0x00000000#32 := by
  dsimp only [hostOps0]
  after_results

/-! ### The second stretch: the selection -/

set_option maxHeartbeats 2000000 in
theorem second_dinv :
    StableHlo.after hostOps0_1 W (Proc.devRef .tc main_v14)
      = select (W (Proc.devRef .tc main_v12)) (W (Proc.devRef .tc main_v13))
          (broadcastInDim Cert.ReferenceIdeal.S50000 ![] Cert.ReferenceIdeal.Facts₀.bcast_S_S50000 (W (Proc.devRef .tc main_cst_2))) := by
  dsimp only [hostOps0_1]
  after_results
  rfl

set_option maxHeartbeats 2000000 in
theorem second_v3 : StableHlo.after hostOps0_1 W (Proc.devRef .tc main_v3) = W (Proc.devRef .tc main_v3) := by
  dsimp only [hostOps0_1]
  after_results

set_option maxHeartbeats 2000000 in
theorem second_v6 : StableHlo.after hostOps0_1 W (Proc.devRef .tc main_v6) = W (Proc.devRef .tc main_v6) := by
  dsimp only [hostOps0_1]
  after_results

/-! ### The third stretch: the two gathers and their product -/

set_option maxHeartbeats 2000000 in
theorem third_norm :
    StableHlo.after hostOps0_2 W (Proc.devRef .tc main_v29)
      = mulf
          (Host.gather Cert.ReferenceIdeal.gather_S50000_S850000x1_S850000_n_0_n_n_0_1_1 (W (Proc.devRef .tc main_v14))
            (broadcastInDim Cert.ReferenceIdeal.S850000x1 ![0] Cert.ReferenceIdeal.Facts₀.bcast_S850000_S850000x1_0 (Cert.ReferenceIdeal.Stage.wrap (F := F) (W (Proc.devRef .tc main_v3)))))
          (Host.gather Cert.ReferenceIdeal.gather_S50000_S850000x1_S850000_n_0_n_n_0_1_1 (W (Proc.devRef .tc main_v14))
            (broadcastInDim Cert.ReferenceIdeal.S850000x1 ![0] Cert.ReferenceIdeal.Facts₀.bcast_S850000_S850000x1_0 (Cert.ReferenceIdeal.Stage.wrap (F := F) (W (Proc.devRef .tc main_v6))))) := by
  dsimp only [hostOps0_2]
  after_results
  rfl

set_option maxHeartbeats 2000000 in
theorem third_v3 : StableHlo.after hostOps0_2 W (Proc.devRef .tc main_v3) = W (Proc.devRef .tc main_v3) := by
  dsimp only [hostOps0_2]
  after_results

set_option maxHeartbeats 2000000 in
theorem third_v6 : StableHlo.after hostOps0_2 W (Proc.devRef .tc main_v6) = W (Proc.devRef .tc main_v6) := by
  dsimp only [hostOps0_2]
  after_results

/-! ### The aggregations -/

set_option maxHeartbeats 2000000 in
theorem agg_first :
    StableHlo.after hostOps1 W (Proc.devRef .tc main_v43) = Cert.ReferenceIdeal.Stage.agg (F := F) (W (Proc.devRef .tc main_v30))
      (W (Proc.devRef .tc main_v3)) (W (Proc.devRef .tc main_v6)) (W (Proc.devRef .tc main_v29)) := by
  dsimp only [hostOps1]
  after_results
  rfl

set_option maxHeartbeats 2000000 in
theorem agg_second :
    StableHlo.after hostOps3 W (Proc.devRef .tc main_v58) = Cert.ReferenceIdeal.Stage.agg (F := F) (W (Proc.devRef .tc main_v45))
      (W (Proc.devRef .tc main_v3)) (W (Proc.devRef .tc main_v6)) (W (Proc.devRef .tc main_v29)) := by
  dsimp only [hostOps3]
  after_results
  rfl

end Stretches

variable (m : (ℓ : Loc nD τ sig) → Buf (Elt F) ℓ) (ρ : Dev nD → PrngReg)

/-- The source nodes: the edge index's first row, then the self loops. -/
theorem prep_src (c : Dev nD) :
    W3 m ρ c (Proc.devRef .tc main_v3) = Cert.ReferenceIdeal.Stage.src (F := F) (m ((c : Thread nD τ).loc main_arg1)) :=
  (third_v3 (W2 m ρ c)).trans ((second_v3 (W1 m ρ c)).trans (first_src (W0 m ρ c)))

/-- The destination nodes: the edge index's second row, then the self loops. -/
theorem prep_dst (c : Dev nD) :
    W3 m ρ c (Proc.devRef .tc main_v6) = Cert.ReferenceIdeal.Stage.dst (F := F) (m ((c : Thread nD τ).loc main_arg1)) :=
  (third_v6 (W2 m ρ c)).trans ((second_v6 (W1 m ρ c)).trans (first_dst (W0 m ρ c)))

/-- The edge weights: the inverse square root of the in-degree (zero where the degree is not positive) at the source
    times the same at the destination. -/
theorem prep_norm (c : Dev nD) :
    W3 m ρ c (Proc.devRef .tc main_v29) = Cert.ReferenceIdeal.Stage.norm (F := F) (m ((c : Thread nD τ).loc main_arg1)) := by
  have h14 : W2 m ρ c (Proc.devRef .tc main_v14) = Cert.ReferenceIdeal.Stage.dinv (F := F) (Cert.ReferenceIdeal.Stage.dst (m ((c : Thread nD τ).loc main_arg1))) := by
    refine (second_dinv (W1 m ρ c)).trans ?_
    rw [show W1 m ρ c (Proc.devRef .tc main_v12) = _ from first_pos (W0 m ρ c),
      show W1 m ρ c (Proc.devRef .tc main_v13) = _ from first_rsqrt (W0 m ρ c),
      show W1 m ρ c (Proc.devRef .tc main_cst_2) = _ from first_zero (W0 m ρ c)]
    rfl
  refine (third_norm (W2 m ρ c)).trans ?_
  rw [h14, show W2 m ρ c (Proc.devRef .tc main_v3) = _ from (second_v3 (W1 m ρ c)).trans (first_src (W0 m ρ c)),
    show W2 m ρ c (Proc.devRef .tc main_v6) = _ from (second_v6 (W1 m ρ c)).trans (first_dst (W0 m ρ c))]
  rfl

/-- The first aggregation, of region 0's output over the edges. -/
theorem agg1 (c : Dev nD) :
    W5 m ρ c (Proc.devRef .tc main_v43) = Cert.ReferenceIdeal.Stage.agg (F := F) (W4 m ρ c (Proc.devRef .tc main_v30))
      (W4 m ρ c (Proc.devRef .tc main_v3)) (W4 m ρ c (Proc.devRef .tc main_v6)) (W4 m ρ c (Proc.devRef .tc main_v29)) :=
  agg_first (W4 m ρ c)

/-- The second aggregation, of region 2's output over the edges. -/
theorem agg2 (c : Dev nD) :
    W8 m ρ c (Proc.devRef .tc main_v58) = Cert.ReferenceIdeal.Stage.agg (F := F) (W7 m ρ c (Proc.devRef .tc main_v45))
      (W7 m ρ c (Proc.devRef .tc main_v3)) (W7 m ρ c (Proc.devRef .tc main_v6)) (W7 m ρ c (Proc.devRef .tc main_v29)) :=
  agg_second (W7 m ρ c)

end Cert.KernelIdeal.Val

end
-- ==== Proof.Dense0.lean ====
import proofs.«124141_j29609504539480_1_alg».proof.Proof.Gen.KernelIdeal.Frame
import proofs.«124141_j29609504539480_1_alg».proof.Proof.Stages
import Idealize.ShloMosaic.Lib.ValueIdx
import Idealize.ShloMosaic.Lib.ValueLayout
import Idealize.ShloMosaic.Lib.Pipeline.Value
import Idealize.ShloMosaic.PureOps.Ideal.Laws

/-!
Region 0 computes the dense product: point `t` multiplies rows `10000 t … 10000 t + 9999` of the input by the whole
weight matrix, so the five written-back blocks are the five row blocks of `x · W`.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product at an index -/

/-- The left factor of element `j` of a block product at contraction position `k`: row `j 0`, column `k`. -/
abbrev dense0_blkRow (j : S10000x128.Idx) (k : Fin 128) : S10000x128.Idx := fun a => match a with
  | ⟨0, _⟩ => ⟨(j 0).val, (j 0).isLt⟩
  | ⟨1, _⟩ => ⟨k.val, k.isLt⟩
/-- The right factor: row `k`, column `j 1` of the weights. -/
abbrev dense0_blkCol (j : S10000x128.Idx) (k : Fin 128) : S128x128.Idx := fun a => match a with
  | ⟨0, _⟩ => ⟨k.val, k.isLt⟩
  | ⟨1, _⟩ => ⟨(j 1).val, (j 1).isLt⟩

theorem dense0_blkLhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dense0_blkLhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem dense0_blkRhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem dense0_blkRhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at an index: the narrowing to bf16 is the identity on the ideal values and the product into the
    zero accumulator is the plain sum over the contraction. -/
theorem dense0_pay_apply (x : Vec Ideal S10000x128 .f32) (w : Vec Ideal S128x128 .f32) (j : S10000x128.Idx) :
    k0_pay1 (F := Ideal) x w j = ∑ k : Fin 128, x (dense0_blkRow j k) * w (dense0_blkCol j k) := by
  unfold k0_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k) = dense0_blkRow j k := funext fun a => Fin.ext (by
    match a with
    | ⟨0, _⟩ => exact dense0_blkLhs_0 _ _
    | ⟨1, _⟩ => exact (dense0_blkLhs_1 _ _).trans hk)
  have er : dot_S10000x128_S128x128_S10000x128_1_0_0_1_n_n.rhsIdx j ((contrEquiv1 dot_S10000x128_S128x128_S10000x128_1_0_0_1_n_n 128 rfl rfl).symm k) = dense0_blkCol j k := funext fun a => Fin.ext (by
    match a with
    | ⟨0, _⟩ => exact (dense0_blkRhs_0 _ _).trans hk
    | ⟨1, _⟩ => exact dense0_blkRhs_1 _ _)
  show x _ * w _ = _
  rw [el, er]

/-! ## The whole product at an index -/

abbrev dense0_arrRow (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
abbrev dense0_arrCol (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

theorem dense0_arrLhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem dense0_arrLhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem dense0_arrRhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem dense0_arrRhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The reference's dense stage at an index: the sum over the contraction of row `i 0` of the input times column `i 1`
    of the weights. -/
theorem dense0_stage_apply (x : (⟨Cert.ReferenceIdeal.S50000x128, .f32⟩ : BufTy).Contents (Elt Ideal)) (w : (⟨Cert.ReferenceIdeal.S128x128, .f32⟩ : BufTy).Contents (Elt Ideal))
    (i : Cert.ReferenceIdeal.S50000x128.Idx) :
    Cert.ReferenceIdeal.Stage.dense (F := Ideal) x w i = ∑ k : Fin 128, x (dense0_arrRow i k) * w (dense0_arrCol i k) := by
  unfold Cert.ReferenceIdeal.Stage.dense
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((contrEquiv1 Cert.ReferenceIdeal.dot_S50000x128_S128x128_S50000x128_1_0_0_1_n_n 128 rfl rfl).symm k) = dense0_arrRow i k := funext fun a => Fin.ext (by
    match a with
    | ⟨0, _⟩ => exact dense0_arrLhs_0 _ _
    | ⟨1, _⟩ => exact (dense0_arrLhs_1 _ _).trans hk)
  have er : Cert.ReferenceIdeal.dot_S50000x128_S128x128_S50000x128_1_0_0_1_n_n.rhsIdx i ((contrEquiv1 Cert.ReferenceIdeal.dot_S50000x128_S128x128_S50000x128_1_0_0_1_n_n 128 rfl rfl).symm k) = dense0_arrCol i k := funext fun a => Fin.ext (by
    match a with
    | ⟨0, _⟩ => exact (dense0_arrRhs_0 _ _).trans hk
    | ⟨1, _⟩ => exact dense0_arrRhs_1 _ _)
  rw [el, er]

/-! ## A block of the product is the product of a row block -/

/-- Element `j` of the product of a row block with the weights is element `i` of the whole product, when `i` is `j`
    moved down by the block's first row `10000 n`: the two sums run over the same factors. -/
theorem dense0_point (X : Vec Ideal S50000x128 .f32) (W : Vec Ideal S128x128 .f32)
    (xb : Vec Ideal S10000x128 .f32) (wb : Vec Ideal S128x128 .f32) (n : Nat)
    (hx : ∀ (y : S10000x128.Idx) (i : S50000x128.Idx), (i 0).val = 10000 * n + (y 0).val → (i 1).val = (y 1).val → xb y = X i)
    (hw : ∀ (y i : S128x128.Idx), (i 0).val = (y 0).val → (i 1).val = (y 1).val → wb y = W i)
    (j : S10000x128.Idx) (i : S50000x128.Idx) (h0 : (i 0).val = 10000 * n + (j 0).val) (h1 : (i 1).val = (j 1).val) :
    k0_pay1 (F := Ideal) xb wb j = Cert.ReferenceIdeal.Stage.dense (F := Ideal) X W i := by
  rw [dense0_pay_apply, dense0_stage_apply]
  refine Finset.sum_congr rfl fun k _ => ?_
  rw [hx (dense0_blkRow j k) (dense0_arrRow i k) h0 rfl, hw (dense0_blkCol j k) (dense0_arrCol i k) rfl h1]

variable (V : (c : Dev nD) → (b : Ref sig .tc) → Buf (Elt Ideal) ((c : Thread nD τ).loc b))

/-! ## The blocks of region 0 -/

theorem dense0_origin : (![0, 0] : Fin 2 → Nat) = fun _ => 0 := funext fun a => by
  match a with
  | ⟨0, _⟩ => rfl
  | ⟨1, _⟩ => rfl

/-- The printed index maps, decided over the grid: the input's and the output's row block is the point's number, the
    weights' block is the whole matrix. -/
theorem dense0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point `t` is rows `10000 t … 10000 t + 9999` of the input array. -/
theorem dense0_xblk_apply (c : Dev nD) (t : Fin cfg0.N) (y : S10000x128.Idx) (i : S50000x128.Idx)
    (h0 : (i 0).val = 10000 * t.val + (y 0).val) (h1 : (i 1).val = (y 1).val) :
    (iblk0 V c 0 t : Vec Ideal S10000x128 .f32) y = (V c main_arg0 : S50000x128.Idx → Elt Ideal .f32) i := by
  obtain ⟨e0, e1, -⟩ := dense0_index t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem dense0_wblk_apply (c : Dev nD) (t : Fin cfg0.N) (y i : S128x128.Idx)
    (h0 : (i 0).val = (y 0).val) (h1 : (i 1).val = (y 1).val) :
    (iblk0 V c 1 t : Vec Ideal S128x128 .f32) y = (V c main_arg2 : S128x128.Idx → Elt Ideal .f32) i := by
  obtain ⟨-, -, e2, e3, -⟩ := dense0_index t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point `t` writes back is block `t` of the whole product. -/
theorem dense0_flushed (c : Dev nD) (t : Fin cfg0.N) :
    (dat0 (F := Ideal) V c).flushed 2 t
      = ((cfg0.win 2).blk t).view.read (Elt Ideal) (Cert.ReferenceIdeal.Stage.dense (F := Ideal) (V c main_arg0) (V c main_arg2)) := by
  show (cfg0.win 2).cut (grid0.coords t) ((dat0 V c).after 2 t) = _
  rw [after0_2]
  unfold out0_2
  rw [View.canon_unit_zero dense0_origin]
  simp only [View.ld_unit_zero (S := S10000x128) dense0_origin, View.ld_unit_zero (S := S128x128) dense0_origin]
  obtain ⟨-, -, -, -, e4, e5⟩ := dense0_index t
  funext j
  show k0_pay1 (F := Ideal) (iblk0 V c 0 t) (iblk0 V c 1 t) j
    = Cert.ReferenceIdeal.Stage.dense (F := Ideal) (V c main_arg0) (V c main_arg2) (((cfg0.win 2).blk t).view.emb j)
  refine dense0_point (V c main_arg0) (V c main_arg2) (iblk0 V c 0 t) (iblk0 V c 1 t) t.val
    (dense0_xblk_apply V c t) (dense0_wblk_apply V c t) j (((cfg0.win 2).blk t).view.emb j) ?_ ?_
  · show win0_2.index t (0 : Fin 2) * 10000 + 1 * (j 0).val = 10000 * t.val + (j 0).val
    rw [e4]; omega
  · show win0_2.index t (1 : Fin 2) * 128 + 1 * (j 1).val = (j 1).val
    rw [e5]; omega

/-! ## The five blocks cover the array -/

/-- An index of the array is in point `t`'s block iff each coordinate is in the block's range on its axis. -/
theorem dense0_mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` is in the block of point `r / 10000`. -/
theorem dense0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨-, -, -, -, e4, e5⟩ := dense0_index ⟨(i 0).val / 10000, ht⟩
  refine ⟨⟨(i 0).val / 10000, ht⟩, flush0_2 _, ?_⟩
  rw [dense0_mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- Region 0 leaves the dense product of the input with the weights in its output array. -/
theorem dense0 (c : Dev nD) :
    (dat0 (F := Ideal) V c).arrAt 2 cfg0.N = Cert.ReferenceIdeal.Stage.dense (F := Ideal) (V c main_arg0) (V c main_arg2) :=
  (dat0 (F := Ideal) V c).arrAt_eq_of_cover 2 (Cert.ReferenceIdeal.Stage.dense (F := Ideal) (V c main_arg0) (V c main_arg2))
    (fun t _ => dense0_flushed V c t) (fun i => dense0_cover i)

end Cert.KernelIdeal.Val

end
-- ==== Proof.Relu1.lean ====
import proofs.«124141_j29609504539480_1_alg».proof.Proof.Gen.KernelIdeal.Frame
import proofs.«124141_j29609504539480_1_alg».proof.Proof.Stages
import Idealize.ShloMosaic.Lib.ValueIdx
import Idealize.ShloMosaic.Lib.ValueLayout
import Idealize.ShloMosaic.Lib.Pipeline.Value
import Idealize.ShloMosaic.PureOps.Ideal.Laws

/-!
Region 1 adds the bias along the feature axis and takes the maximum with zero, row block by row block.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The offsets of a rectangle that starts at the origin of a two-axis block. -/
theorem relu1_origin2 : (![0, 0] : Fin 2 → Nat) = fun _ => 0 := funext fun a => by fin_cases a <;> rfl

/-- The offset of a rectangle that starts at the origin of a one-axis block. -/
theorem relu1_origin1 : (![0] : Fin 1 → Nat) = fun _ => 0 := funext fun a => by fin_cases a <;> rfl

/-- The whole-array stage at row `r`, feature `q`: the larger of `a[r, q] + b[q]` and zero. The bias reaches
    `[r, q]` through `[0, q]` of its one-row form; the zero is the rank-0 constant read at its only index. -/
theorem relu1_stage_apply (a : (⟨Cert.ReferenceIdeal.S50000x128, .f32⟩ : BufTy).Contents (Elt Ideal))
    (b : (⟨Cert.ReferenceIdeal.S128, .f32⟩ : BufTy).Contents (Elt Ideal)) (r : Fin 50000) (q : Fin 128) :
    Cert.ReferenceIdeal.Stage.biasRelu (F := Ideal) a b (ix2 r q)
      = max (a (ix2 r q) + b (ix1 q)) (Ideal.ofBits .f32 0x00000000#32) := by
  unfold Cert.ReferenceIdeal.Stage.biasRelu
  rw [maximumf_apply, addf_apply]
  refine congrArg₂ max (congrArg (a (ix2 r q) + ·) ?_) ?_
  · refine (broadcastInDim_apply _ _ _ (ix2 r q) (ix2 (⟨0, Nat.one_pos⟩ : Fin 1) q) ?_).trans ?_
    · intro d
      match d with
      | ⟨0, _⟩ => show 0 = if (1 : Nat) = 1 then 0 else r.val; rw [if_pos rfl]
      | ⟨1, _⟩ => show q.val = if (128 : Nat) = 1 then 0 else q.val; rw [if_neg (by decide)]
    · refine broadcastInDim_apply _ _ b (ix2 (⟨0, Nat.one_pos⟩ : Fin 1) q) (ix1 q) ?_
      intro d
      match d with
      | ⟨0, _⟩ => show q.val = if (128 : Nat) = 1 then 0 else q.val; rw [if_neg (by decide)]
  · exact (broadcastInDim_apply _ _ _ (ix2 r q) ix0 (fun d => d.elim0)).trans rfl

/-- The body's payload at row `r`, feature `q` of a block: the larger of `x[r, q] + y[q]` and zero. The bias block
    is viewed as one row, and that row is repeated down the block. -/
theorem relu1_pay_apply (x : Vec Ideal S10000x128 .f32) (y : Vec Ideal S128 .f32) (r : Fin 10000) (q : Fin 128) :
    k1_pay1 x y (ix2 r q) = max (x (ix2 r q) + y (ix1 q)) (Ideal.ofBits .f32 0x00000000#32) := by
  unfold k1_pay1
  rw [maximumf_apply, addf_apply, broadcast_apply, shapeCast_self]
  refine congrArg₂ max (congrArg (x (ix2 r q) + ·) ?_) rfl
  refine (broadcastTo_apply _ _ (ix2 r q) (ix2 (⟨0, Nat.one_pos⟩ : Fin 1) q) ?_).trans ?_
  · intro d
    match d with
    | ⟨0, _⟩ => show 0 = if (1 : Nat) = 1 then 0 else _; rw [if_pos rfl]
    | ⟨1, _⟩ => show q.val = if (128 : Nat) = 1 then 0 else q.val; rw [if_neg (by decide)]
  · refine shapeCast_apply y _ (ix2 (⟨0, Nat.one_pos⟩ : Fin 1) q) (ix1 q) ?_
    rw [Shape.rowMajor_val_one, Shape.rowMajor_val_two]
    show q.val = 0 * _ + q.val
    omega

/-- One element of a block against one element of the whole array: when the block's entry `x[j]` is the array's
    entry `a[i]`, the bias block is the bias, and `i` and `j` name the same feature, the payload at `j` is the stage at `i`. -/
theorem relu1_point (a : (⟨Cert.ReferenceIdeal.S50000x128, .f32⟩ : BufTy).Contents (Elt Ideal))
    (b : (⟨Cert.ReferenceIdeal.S128, .f32⟩ : BufTy).Contents (Elt Ideal))
    (x : Vec Ideal S10000x128 .f32) (y : Vec Ideal S128 .f32) (j : S10000x128.Idx) (i : Cert.ReferenceIdeal.S50000x128.Idx)
    (hx : x j = a i) (hy : ∀ k : S128.Idx, y k = b k) (hf : (i 1).val = (j 1).val) :
    k1_pay1 x y j = Cert.ReferenceIdeal.Stage.biasRelu (F := Ideal) a b i := by
  obtain ⟨r, q, rfl⟩ : ∃ (r : Fin 10000) (q : Fin 128), j = ix2 r q := ⟨j 0, j 1, eq_ix2 j⟩
  obtain ⟨r', q', rfl⟩ : ∃ (r' : Fin 50000) (q' : Fin 128), i = ix2 r' q' := ⟨i 0, i 1, eq_ix2 i⟩
  obtain rfl : q' = q := Fin.ext hf
  rw [relu1_pay_apply, relu1_stage_apply, hx, hy]

/-- The printed index maps, decided over the five grid points: the two row windows sit at row block `t`, feature
    block 0; the bias window stays at block 0. -/
theorem relu1_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole-array stage of the arrays the region finds. -/
theorem relu1_flushed (c : Dev nD) (t : Fin cfg1.N) :
    (dat1 (F := Ideal) V c).flushed 2 t = ((cfg1.win 2).blk t).view.read (Elt Ideal)
      (Cert.ReferenceIdeal.Stage.biasRelu (F := Ideal) (V c main_v43) (V c main_arg3)) := by
  show (cfg1.win 2).cut (grid1.coords t) ((dat1 V c).after 2 t) = _
  rw [after1_2]
  unfold out1_2
  rw [View.canon_unit_zero relu1_origin2]
  simp only [View.ld_unit_zero (S := S10000x128) relu1_origin2, View.ld_unit_zero (S := S128) relu1_origin1]
  obtain ⟨e0, e1, e2, e3, e4⟩ := relu1_index t
  funext j
  show k1_pay1 (iblk1 V c 0 t) (iblk1 V c 1 t) j
    = Cert.ReferenceIdeal.Stage.biasRelu (F := Ideal) (V c main_v43) (V c main_arg3) (((cfg1.win 2).blk t).view.emb j)
  refine relu1_point (V c main_v43) (V c main_arg3) (iblk1 V c 0 t) (iblk1 V c 1 t) j (((cfg1.win 2).blk t).view.emb j) ?_ ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · intro k
    show V c main_arg3 (((cfg1.win 1).blk t).view.emb k) = V c main_arg3 k
    refine congrArg (V c main_arg3) (funext fun a => Fin.ext ?_)
    match a with
    | ⟨0, _⟩ => show win1_1.index t (0 : Fin 1) * 128 + 1 * (k 0).val = (k 0).val; omega
  · show win1_2.index t (1 : Fin 2) * 128 + 1 * (j 1).val = (j 1).val
    omega

/-- An index of the array lies in point `t`'s block exactly when each coordinate lies in the block's range on its axis. -/
theorem relu1_mem_blk (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v44).slice (win1_2.rect t)).set ↔ _
  rw [View.set_slice_whole, Rect.mem_set_unit]
  exact Iff.rfl

/-- The five row blocks cover the array: row `r` lies in the block of point `r / 10000`. -/
theorem relu1_cover (i : S50000x128.Idx) :
    ∃ t : Fin cfg1.N, (cfg1.win 2).flush t = true ∧ i ∈ ((cfg1.win 2).blk t).view.set := by
  have hr : (i 0).val < 50000 := (i 0).isLt
  have hq : (i 1).val < 128 := (i 1).isLt
  have hN : cfg1.N = 5 := N_1
  let t : Fin cfg1.N := ⟨(i 0).val / 10000, by rw [hN]; omega⟩
  obtain ⟨e0, e1, e2, e3, e4⟩ := relu1_index t
  have ht : t.val = (i 0).val / 10000 := rfl
  refine ⟨t, flush1_2 t, ?_⟩
  rw [relu1_mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

theorem relu1 (c : Dev nD) :
    (dat1 (F := Ideal) V c).arrAt 2 cfg1.N = Cert.ReferenceIdeal.Stage.biasRelu (F := Ideal) (V c main_v43) (V c main_arg3) :=
  (dat1 (F := Ideal) V c).arrAt_eq_of_cover 2
    (Cert.ReferenceIdeal.Stage.biasRelu (F := Ideal) (V c main_v43) (V c main_arg3))
    (fun t _ => relu1_flushed V c t) relu1_cover

end Cert.KernelIdeal.Val

end
-- ==== Proof.Dense2.lean ====
import proofs.«124141_j29609504539480_1_alg».proof.Proof.Gen.KernelIdeal.Frame
import proofs.«124141_j29609504539480_1_alg».proof.Proof.Stages
import Idealize.ShloMosaic.Lib.ValueIdx
import Idealize.ShloMosaic.Lib.ValueLayout
import Idealize.ShloMosaic.Lib.Pipeline.Value
import Idealize.ShloMosaic.PureOps.Ideal.Laws

/-!
Region 2 computes the dense product: point `t` multiplies rows `10000 t … 10000 t + 9999` of the input by the whole
weight matrix, so the five written-back blocks are the five row blocks of `h · W`.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product at an index -/

/-- The left factor of element `j` of a block product at contraction position `k`: row `j 0`, column `k`. -/
abbrev dense2_blkRow (j : S10000x128.Idx) (k : Fin 128) : S10000x128.Idx := fun a => match a with
  | ⟨0, _⟩ => ⟨(j 0).val, (j 0).isLt⟩
  | ⟨1, _⟩ => ⟨k.val, k.isLt⟩
/-- The right factor: row `k`, column `j 1` of the weights. -/
abbrev dense2_blkCol (j : S10000x128.Idx) (k : Fin 128) : S128x128.Idx := fun a => match a with
  | ⟨0, _⟩ => ⟨k.val, k.isLt⟩
  | ⟨1, _⟩ => ⟨(j 1).val, (j 1).isLt⟩

theorem dense2_blkLhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dense2_blkLhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem dense2_blkRhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem dense2_blkRhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at an index: the cast to the block's own shape and the narrowing to bf16 are the identity on the
    ideal values, and the product into the zero accumulator is the plain sum over the contraction. -/
theorem dense2_pay_apply (x : Vec Ideal S10000x128 .f32) (w : Vec Ideal S128x128 .f32) (j : S10000x128.Idx) :
    k2_pay1 (F := Ideal) x w j = ∑ k : Fin 128, x (dense2_blkRow j k) * w (dense2_blkCol j k) := by
  unfold k2_pay1
  simp only [matmul, shapeCast_self]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx j ((contrEquiv1 dot_S10000x128_S128x128_S10000x128_1_0_0_1_n_n 128 rfl rfl).symm k) = dense2_blkRow j k := funext fun a => Fin.ext (by
    match a with
    | ⟨0, _⟩ => exact dense2_blkLhs_0 _ _
    | ⟨1, _⟩ => exact (dense2_blkLhs_1 _ _).trans hk)
  have er : dot_S10000x128_S128x128_S10000x128_1_0_0_1_n_n.rhsIdx j ((contrEquiv1 dot_S10000x128_S128x128_S10000x128_1_0_0_1_n_n 128 rfl rfl).symm k) = dense2_blkCol j k := funext fun a => Fin.ext (by
    match a with
    | ⟨0, _⟩ => exact (dense2_blkRhs_0 _ _).trans hk
    | ⟨1, _⟩ => exact dense2_blkRhs_1 _ _)
  show x _ * w _ = _
  rw [el, er]

/-! ## The whole product at an index -/

abbrev dense2_arrRow (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
abbrev dense2_arrCol (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

theorem dense2_arrLhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem dense2_arrLhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem dense2_arrRhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem dense2_arrRhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The reference's dense stage at an index: the sum over the contraction of row `i 0` of the input times column `i 1`
    of the weights. -/
theorem dense2_stage_apply (x : (⟨Cert.ReferenceIdeal.S50000x128, .f32⟩ : BufTy).Contents (Elt Ideal)) (w : (⟨Cert.ReferenceIdeal.S128x128, .f32⟩ : BufTy).Contents (Elt Ideal))
    (i : Cert.ReferenceIdeal.S50000x128.Idx) :
    Cert.ReferenceIdeal.Stage.dense (F := Ideal) x w i = ∑ k : Fin 128, x (dense2_arrRow i k) * w (dense2_arrCol i k) := by
  unfold Cert.ReferenceIdeal.Stage.dense
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((contrEquiv1 Cert.ReferenceIdeal.dot_S50000x128_S128x128_S50000x128_1_0_0_1_n_n 128 rfl rfl).symm k) = dense2_arrRow i k := funext fun a => Fin.ext (by
    match a with
    | ⟨0, _⟩ => exact dense2_arrLhs_0 _ _
    | ⟨1, _⟩ => exact (dense2_arrLhs_1 _ _).trans hk)
  have er : Cert.ReferenceIdeal.dot_S50000x128_S128x128_S50000x128_1_0_0_1_n_n.rhsIdx i ((contrEquiv1 Cert.ReferenceIdeal.dot_S50000x128_S128x128_S50000x128_1_0_0_1_n_n 128 rfl rfl).symm k) = dense2_arrCol i k := funext fun a => Fin.ext (by
    match a with
    | ⟨0, _⟩ => exact (dense2_arrRhs_0 _ _).trans hk
    | ⟨1, _⟩ => exact dense2_arrRhs_1 _ _)
  rw [el, er]

/-! ## A block of the product is the product of a row block -/

/-- Element `j` of the product of a row block with the weights is element `i` of the whole product, when `i` is `j`
    moved down by the block's first row `10000 n`: the two sums run over the same factors. -/
theorem dense2_point (X : Vec Ideal S50000x128 .f32) (W : Vec Ideal S128x128 .f32)
    (xb : Vec Ideal S10000x128 .f32) (wb : Vec Ideal S128x128 .f32) (n : Nat)
    (hx : ∀ (y : S10000x128.Idx) (i : S50000x128.Idx), (i 0).val = 10000 * n + (y 0).val → (i 1).val = (y 1).val → xb y = X i)
    (hw : ∀ (y i : S128x128.Idx), (i 0).val = (y 0).val → (i 1).val = (y 1).val → wb y = W i)
    (j : S10000x128.Idx) (i : S50000x128.Idx) (h0 : (i 0).val = 10000 * n + (j 0).val) (h1 : (i 1).val = (j 1).val) :
    k2_pay1 (F := Ideal) xb wb j = Cert.ReferenceIdeal.Stage.dense (F := Ideal) X W i := by
  rw [dense2_pay_apply, dense2_stage_apply]
  refine Finset.sum_congr rfl fun k _ => ?_
  rw [hx (dense2_blkRow j k) (dense2_arrRow i k) h0 rfl, hw (dense2_blkCol j k) (dense2_arrCol i k) rfl h1]

variable (V : (c : Dev nD) → (b : Ref sig .tc) → Buf (Elt Ideal) ((c : Thread nD τ).loc b))

/-! ## The blocks of region 2 -/

theorem dense2_origin : (![0, 0] : Fin 2 → Nat) = fun _ => 0 := funext fun a => by
  match a with
  | ⟨0, _⟩ => rfl
  | ⟨1, _⟩ => rfl

/-- The printed index maps, decided over the grid: the input's and the output's row block is the point's number, the
    weights' block is the whole matrix. -/
theorem dense2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point `t` is rows `10000 t … 10000 t + 9999` of the input array. -/
theorem dense2_xblk_apply (c : Dev nD) (t : Fin cfg2.N) (y : S10000x128.Idx) (i : S50000x128.Idx)
    (h0 : (i 0).val = 10000 * t.val + (y 0).val) (h1 : (i 1).val = (y 1).val) :
    (iblk2 V c 0 t : Vec Ideal S10000x128 .f32) y = (V c main_v44 : S50000x128.Idx → Elt Ideal .f32) i := by
  obtain ⟨e0, e1, -⟩ := dense2_index t
  unfold iblk2
  rw [View.read_apply]
  show V c main_v44 _ = V c main_v44 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 128 + 1 * (y 1).val = (i 1).val; rw [e1, h1]; omega

/-- The weights' block at every point is the whole weight matrix. -/
theorem dense2_wblk_apply (c : Dev nD) (t : Fin cfg2.N) (y i : S128x128.Idx)
    (h0 : (i 0).val = (y 0).val) (h1 : (i 1).val = (y 1).val) :
    (iblk2 V c 1 t : Vec Ideal S128x128 .f32) y = (V c main_arg4 : S128x128.Idx → Elt Ideal .f32) i := by
  obtain ⟨-, -, e2, e3, -⟩ := dense2_index t
  unfold iblk2
  rw [View.read_apply]
  show V c main_arg4 _ = V c main_arg4 _
  congr 1
  funext a
  apply Fin.ext
  match a with
  | ⟨0, _⟩ => show win2_1.index t (0 : Fin 2) * 128 + 1 * (y 0).val = (i 0).val; rw [e2, h0]; omega
  | ⟨1, _⟩ => show win2_1.index t (1 : Fin 2) * 128 + 1 * (y 1).val = (i 1).val; rw [e3, h1]; omega

/-- What point `t` writes back is block `t` of the whole product. -/
theorem dense2_flushed (c : Dev nD) (t : Fin cfg2.N) :
    (dat2 (F := Ideal) V c).flushed 2 t
      = ((cfg2.win 2).blk t).view.read (Elt Ideal) (Cert.ReferenceIdeal.Stage.dense (F := Ideal) (V c main_v44) (V c main_arg4)) := by
  show (cfg2.win 2).cut (grid2.coords t) ((dat2 V c).after 2 t) = _
  rw [after2_2]
  unfold out2_2
  rw [View.canon_unit_zero dense2_origin]
  simp only [View.ld_unit_zero (S := S10000x128) dense2_origin, View.ld_unit_zero (S := S128x128) dense2_origin]
  obtain ⟨-, -, -, -, e4, e5⟩ := dense2_index t
  funext j
  show k2_pay1 (F := Ideal) (iblk2 V c 0 t) (iblk2 V c 1 t) j
    = Cert.ReferenceIdeal.Stage.dense (F := Ideal) (V c main_v44) (V c main_arg4) (((cfg2.win 2).blk t).view.emb j)
  refine dense2_point (V c main_v44) (V c main_arg4) (iblk2 V c 0 t) (iblk2 V c 1 t) t.val
    (dense2_xblk_apply V c t) (dense2_wblk_apply V c t) j (((cfg2.win 2).blk t).view.emb j) ?_ ?_
  · show win2_2.index t (0 : Fin 2) * 10000 + 1 * (j 0).val = 10000 * t.val + (j 0).val
    rw [e4]; omega
  · show win2_2.index t (1 : Fin 2) * 128 + 1 * (j 1).val = (j 1).val
    rw [e5]; omega

/-! ## The five blocks cover the array -/

/-- An index of the array is in point `t`'s block iff each coordinate is in the block's range on its axis. -/
theorem dense2_mem_blk (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Row `r` is in the block of point `r / 10000`. -/
theorem dense2_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, e4, e5⟩ := dense2_index ⟨(i 0).val / 10000, ht⟩
  refine ⟨⟨(i 0).val / 10000, ht⟩, flush2_2 _, ?_⟩
  rw [dense2_mem_blk]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val ∧ (i 1).val < win2_2.index ⟨(i 0).val / 10000, ht⟩ (1 : Fin 2) * 128 + 128
    rw [e5]; omega

/-- Region 2 leaves the dense product of its input with the weights in its output array. -/
theorem dense2 (c : Dev nD) :
    (dat2 (F := Ideal) V c).arrAt 2 cfg2.N = Cert.ReferenceIdeal.Stage.dense (F := Ideal) (V c main_v44) (V c main_arg4) :=
  (dat2 (F := Ideal) V c).arrAt_eq_of_cover 2 (Cert.ReferenceIdeal.Stage.dense (F := Ideal) (V c main_v44) (V c main_arg4))
    (fun t _ => dense2_flushed V c t) (fun i => dense2_cover i)

end Cert.KernelIdeal.Val

end
-- ==== Proof.Relu3.lean ====
import proofs.«124141_j29609504539480_1_alg».proof.Proof.Gen.KernelIdeal.Frame
import proofs.«124141_j29609504539480_1_alg».proof.Proof.Stages
import Idealize.ShloMosaic.Lib.ValueIdx
import Idealize.ShloMosaic.Lib.ValueLayout
import Idealize.ShloMosaic.Lib.Pipeline.Value
import Idealize.ShloMosaic.PureOps.Ideal.Laws

/-!
Region 3 adds the bias along the feature axis and takes the maximum with zero, row block by row block.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The offsets of a rectangle that starts at the origin of a two-axis block. -/
theorem relu3_origin2 : (![0, 0] : Fin 2 → Nat) = fun _ => 0 := funext fun a => by fin_cases a <;> rfl

/-- The offset of a rectangle that starts at the origin of a one-axis block. -/
theorem relu3_origin1 : (![0] : Fin 1 → Nat) = fun _ => 0 := funext fun a => by fin_cases a <;> rfl

/-- The whole-array stage at row `r`, feature `q`: the larger of `a[r, q] + b[q]` and zero. The bias reaches
    `[r, q]` through `[0, q]` of its one-row form; the zero is the rank-0 constant read at its only index. -/
theorem relu3_stage_apply (a : (⟨Cert.ReferenceIdeal.S50000x128, .f32⟩ : BufTy).Contents (Elt Ideal))
    (b : (⟨Cert.ReferenceIdeal.S128, .f32⟩ : BufTy).Contents (Elt Ideal)) (r : Fin 50000) (q : Fin 128) :
    Cert.ReferenceIdeal.Stage.biasRelu (F := Ideal) a b (ix2 r q)
      = max (a (ix2 r q) + b (ix1 q)) (Ideal.ofBits .f32 0x00000000#32) := by
  unfold Cert.ReferenceIdeal.Stage.biasRelu
  rw [maximumf_apply, addf_apply]
  refine congrArg₂ max (congrArg (a (ix2 r q) + ·) ?_) ?_
  · refine (broadcastInDim_apply _ _ _ (ix2 r q) (ix2 (⟨0, Nat.one_pos⟩ : Fin 1) q) ?_).trans ?_
    · intro d
      match d with
      | ⟨0, _⟩ => show 0 = if (1 : Nat) = 1 then 0 else r.val; rw [if_pos rfl]
      | ⟨1, _⟩ => show q.val = if (128 : Nat) = 1 then 0 else q.val; rw [if_neg (by decide)]
    · refine broadcastInDim_apply _ _ b (ix2 (⟨0, Nat.one_pos⟩ : Fin 1) q) (ix1 q) ?_
      intro d
      match d with
      | ⟨0, _⟩ => show q.val = if (128 : Nat) = 1 then 0 else q.val; rw [if_neg (by decide)]
  · exact (broadcastInDim_apply _ _ _ (ix2 r q) ix0 (fun d => d.elim0)).trans rfl

/-- The body's payload at row `r`, feature `q` of a block: the larger of `x[r, q] + y[q]` and zero. The bias block
    is viewed as one row, and that row is repeated down the block. -/
theorem relu3_pay_apply (x : Vec Ideal S10000x128 .f32) (y : Vec Ideal S128 .f32) (r : Fin 10000) (q : Fin 128) :
    k3_pay1 x y (ix2 r q) = max (x (ix2 r q) + y (ix1 q)) (Ideal.ofBits .f32 0x00000000#32) := by
  unfold k3_pay1
  rw [maximumf_apply, addf_apply, broadcast_apply, shapeCast_self]
  refine congrArg₂ max (congrArg (x (ix2 r q) + ·) ?_) rfl
  refine (broadcastTo_apply _ _ (ix2 r q) (ix2 (⟨0, Nat.one_pos⟩ : Fin 1) q) ?_).trans ?_
  · intro d
    match d with
    | ⟨0, _⟩ => show 0 = if (1 : Nat) = 1 then 0 else _; rw [if_pos rfl]
    | ⟨1, _⟩ => show q.val = if (128 : Nat) = 1 then 0 else q.val; rw [if_neg (by decide)]
  · refine shapeCast_apply y _ (ix2 (⟨0, Nat.one_pos⟩ : Fin 1) q) (ix1 q) ?_
    rw [Shape.rowMajor_val_one, Shape.rowMajor_val_two]
    show q.val = 0 * _ + q.val
    omega

/-- One element of a block against one element of the whole array: when the block's entry `x[j]` is the array's
    entry `a[i]`, the bias block is the bias, and `i` and `j` name the same feature, the payload at `j` is the stage at `i`. -/
theorem relu3_point (a : (⟨Cert.ReferenceIdeal.S50000x128, .f32⟩ : BufTy).Contents (Elt Ideal))
    (b : (⟨Cert.ReferenceIdeal.S128, .f32⟩ : BufTy).Contents (Elt Ideal))
    (x : Vec Ideal S10000x128 .f32) (y : Vec Ideal S128 .f32) (j : S10000x128.Idx) (i : Cert.ReferenceIdeal.S50000x128.Idx)
    (hx : x j = a i) (hy : ∀ k : S128.Idx, y k = b k) (hf : (i 1).val = (j 1).val) :
    k3_pay1 x y j = Cert.ReferenceIdeal.Stage.biasRelu (F := Ideal) a b i := by
  obtain ⟨r, q, rfl⟩ : ∃ (r : Fin 10000) (q : Fin 128), j = ix2 r q := ⟨j 0, j 1, eq_ix2 j⟩
  obtain ⟨r', q', rfl⟩ : ∃ (r' : Fin 50000) (q' : Fin 128), i = ix2 r' q' := ⟨i 0, i 1, eq_ix2 i⟩
  obtain rfl : q' = q := Fin.ext hf
  rw [relu3_pay_apply, relu3_stage_apply, hx, hy]

/-- The printed index maps, decided over the five grid points: the two row windows sit at row block `t`, feature
    block 0; the bias window stays at block 0. -/
theorem relu3_index : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the whole-array stage of the arrays the region finds. -/
theorem relu3_flushed (c : Dev nD) (t : Fin cfg3.N) :
    (dat3 (F := Ideal) V c).flushed 2 t = ((cfg3.win 2).blk t).view.read (Elt Ideal)
      (Cert.ReferenceIdeal.Stage.biasRelu (F := Ideal) (V c main_v58) (V c main_arg5)) := by
  show (cfg3.win 2).cut (grid3.coords t) ((dat3 V c).after 2 t) = _
  rw [after3_2]
  unfold out3_2
  rw [View.canon_unit_zero relu3_origin2]
  simp only [View.ld_unit_zero (S := S10000x128) relu3_origin2, View.ld_unit_zero (S := S128) relu3_origin1]
  obtain ⟨e0, e1, e2, e3, e4⟩ := relu3_index t
  funext j
  show k3_pay1 (iblk3 V c 0 t) (iblk3 V c 1 t) j
    = Cert.ReferenceIdeal.Stage.biasRelu (F := Ideal) (V c main_v58) (V c main_arg5) (((cfg3.win 2).blk t).view.emb j)
  refine relu3_point (V c main_v58) (V c main_arg5) (iblk3 V c 0 t) (iblk3 V c 1 t) j (((cfg3.win 2).blk t).view.emb j) ?_ ?_ ?_
  · show V c main_v58 (((cfg3.win 0).blk t).view.emb j) = V c main_v58 (((cfg3.win 2).blk t).view.emb j)
    refine congrArg (V c main_v58) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · intro k
    show V c main_arg5 (((cfg3.win 1).blk t).view.emb k) = V c main_arg5 k
    refine congrArg (V c main_arg5) (funext fun a => Fin.ext ?_)
    match a with
    | ⟨0, _⟩ => show win3_1.index t (0 : Fin 1) * 128 + 1 * (k 0).val = (k 0).val; omega
  · show win3_2.index t (1 : Fin 2) * 128 + 1 * (j 1).val = (j 1).val
    omega

/-- An index of the array lies in point `t`'s block exactly when each coordinate lies in the block's range on its axis. -/
theorem relu3_mem_blk (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v59).slice (win3_2.rect t)).set ↔ _
  rw [View.set_slice_whole, Rect.mem_set_unit]
  exact Iff.rfl

/-- The five row blocks cover the array: row `r` lies in the block of point `r / 10000`. -/
theorem relu3_cover (i : S50000x128.Idx) :
    ∃ t : Fin cfg3.N, (cfg3.win 2).flush t = true ∧ i ∈ ((cfg3.win 2).blk t).view.set := by
  have hr : (i 0).val < 50000 := (i 0).isLt
  have hq : (i 1).val < 128 := (i 1).isLt
  have hN : cfg3.N = 5 := N_3
  let t : Fin cfg3.N := ⟨(i 0).val / 10000, by rw [hN]; omega⟩
  obtain ⟨e0, e1, e2, e3, e4⟩ := relu3_index t
  have ht : t.val = (i 0).val / 10000 := rfl
  refine ⟨t, flush3_2 t, ?_⟩
  rw [relu3_mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

theorem relu3 (c : Dev nD) :
    (dat3 (F := Ideal) V c).arrAt 2 cfg3.N = Cert.ReferenceIdeal.Stage.biasRelu (F := Ideal) (V c main_v58) (V c main_arg5) :=
  (dat3 (F := Ideal) V c).arrAt_eq_of_cover 2
    (Cert.ReferenceIdeal.Stage.biasRelu (F := Ideal) (V c main_v58) (V c main_arg5))
    (fun t _ => relu3_flushed V c t) relu3_cover

end Cert.KernelIdeal.Val

end
-- ==== Proof.Head4.lean ====
import proofs.«124141_j29609504539480_1_alg».proof.Proof.Gen.KernelIdeal.Frame
import proofs.«124141_j29609504539480_1_alg».proof.Proof.Stages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
Region 4 is the output layer: the product with the single weight column, the bias, and the logistic function, row
block by row block; the logistic function is `1 / (1 + exp (-z))` on every extended real.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The output layer, row by row -/

/-- Row `r` of the output layer: the logistic function of the row's product with the weight column plus the bias. -/
def head4_row (h : FVec Ideal S50000x128 .f32) (w : FVec Ideal S128x1 .f32) (b : FVec Ideal S1 .f32) (r : Fin 50000) : EReal :=
  Ideal.logistic ((∑ k : Fin 128, h (ix2 r k) * w (ix2 k (0 : Fin 1))) + b (ix1 (0 : Fin 1)))

/-- The output layer as one function of the three arrays. -/
def head4_all (h : FVec Ideal S50000x128 .f32) (w : FVec Ideal S128x1 .f32) (b : FVec Ideal S1 .f32) : FVec Ideal S50000x1 .f32 :=
  fun i => head4_row h w b (i 0)

/-! ## The kernel's product at an index -/

/-- The operands' indices of the block's product at output entry `i` and contraction index `q`, axis by axis: the left
    operand's row is `i`'s and its column the contraction index; the right operand's row is the contraction index and its
    column `i`'s. -/
theorem head4_lhs_blk_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem head4_lhs_blk_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem head4_rhs_blk_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem head4_rhs_blk_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- The block's product into the zero accumulator, at row `p`: the sum over the 128 features. -/
theorem head4_matmul_blk {φ₁ φ₂ : FTy} (x : FVec Ideal S10000x128 φ₁) (y : FVec Ideal S128x1 φ₂) (p : Fin 10000) (q : Fin 1) :
    matmul dot_S10000x128_S128x1_S10000x1_1_0_0_1_n_n none x y (constant S10000x1 .f32 0x00000000#32) (ix2 p q)
      = ∑ k : Fin 128, x (ix2 p k) * y (ix2 k q) := by
  show FloatOps.matmul dot_S10000x128_S128x1_S10000x1_1_0_0_1_n_n none x y (constant S10000x1 .f32 0x00000000#32) (ix2 p q) = _
  rw [Ideal.matmul_constant_zero_apply, ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k := funext fun a => Fin.ext (by
    match a with
    | ⟨0, _⟩ => exact head4_lhs_blk_0 _ _
    | ⟨1, _⟩ => exact (head4_lhs_blk_1 _ _).trans hk)
  have er : dot_S10000x128_S128x1_S10000x1_1_0_0_1_n_n.rhsIdx (ix2 p q) ((contrEquiv1 dot_S10000x128_S128x1_S10000x1_1_0_0_1_n_n 128 rfl rfl).symm k) = ix2 k q := funext fun a => Fin.ext (by
    match a with
    | ⟨0, _⟩ => exact (head4_rhs_blk_0 _ _).trans hk
    | ⟨1, _⟩ => exact head4_rhs_blk_1 _ _)
  rw [el, er]

/-- The bias, cast to one row of one column and broadcast down the block's rows, reads the bias's one entry. -/
theorem head4_bias_blk (x2 : FVec Ideal S1 .f32) (h : S1.ShapeCasts S1x1) (h' : S1x1.Broadcasts S10000x1) (p : Fin 10000) (q : Fin 1) :
    broadcastTo S10000x1 (shapeCast S1x1 x2 h) h' (ix2 p q) = x2 (ix1 (0 : Fin 1)) := by
  rw [broadcastTo_1b_ab_apply, shapeCast_a_1a_apply]
  exact congrArg x2 (congrArg ix1 (Subsingleton.elim _ _))

/-- The body's payload at row `p` of a block. -/
theorem head4_pay_apply (x0 : Vec Ideal S10000x128 .f32) (x1 : Vec Ideal S128x1 .f32) (x2 : Vec Ideal S1 .f32) (p : Fin 10000) (q : Fin 1) :
    k4_pay1 (F := Ideal) x0 x1 x2 (ix2 p q)
      = Ideal.logistic ((∑ k : Fin 128, x0 (ix2 p k) * x1 (ix2 k q)) + x2 (ix1 (0 : Fin 1))) := by
  unfold k4_pay1
  show Ideal.logistic (matmul (F := Ideal) dot_S10000x128_S128x1_S10000x1_1_0_0_1_n_n none (truncf (F := Ideal) .bf16 (shapeCast S10000x128 x0 _) _) (truncf (F := Ideal) .bf16 x1 _) (constant S10000x1 .f32 0x00000000#32) (ix2 p q)
      + broadcastTo S10000x1 (shapeCast S1x1 x2 _) _ (ix2 p q)) = _
  rw [head4_matmul_blk, head4_bias_blk, shapeCast_self]
  rfl

/-! ## The reference's output layer is the same function -/

/-- The same four index facts for the reference's product over all 50000 rows. -/
theorem head4_lhs_ref_0 (i : Cert.ReferenceIdeal.S50000x1.Idx) (q : Cert.ReferenceIdeal.dot_S50000x128_S128x1_S50000x1_1_0_0_1_n_n.contr.Idx) :
    (Cert.ReferenceIdeal.dot_S50000x128_S128x1_S50000x1_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x1_S50000x1_1_0_0_1_n_n.lhsBatch by decide), dif_pos (show (0 : Fin Cert.ReferenceIdeal.S50000x128.rank) ∈ Cert.ReferenceIdeal.dot_S50000x128_S128x1_S50000x1_1_0_0_1_n_n.lhsNonContracting by decide)]
  rfl
theorem head4_lhs_ref_1 (i : Cert.ReferenceIdeal.S50000x1.Idx) (q : Cert.ReferenceIdeal.dot_S50000x128_S128x1_S50000x1_1_0_0_1_n_n.contr.Idx) :
    (Cert.ReferenceIdeal.dot_S50000x128_S128x1_S50000x1_1_0_0_1_n_n.lhsIdx i q 1).val = (q ⟨0, by decide⟩).val :=
  Cert.ReferenceIdeal.dot_S50000x128_S128x1_S50000x1_1_0_0_1_n_n.lhsIdx_val_of_single rfl i q
theorem head4_rhs_ref_0 (i : Cert.ReferenceIdeal.S50000x1.Idx) (q : Cert.ReferenceIdeal.dot_S50000x128_S128x1_S50000x1_1_0_0_1_n_n.contr.Idx) :
    (Cert.ReferenceIdeal.dot_S50000x128_S128x1_S50000x1_1_0_0_1_n_n.rhsIdx i q 0).val = (q ⟨0, by decide⟩).val :=
  Cert.ReferenceIdeal.dot_S50000x128_S128x1_S50000x1_1_0_0_1_n_n.rhsIdx_val_of_single rfl i q
theorem head4_rhs_ref_1 (i : Cert.ReferenceIdeal.S50000x1.Idx) (q : Cert.ReferenceIdeal.dot_S50000x128_S128x1_S50000x1_1_0_0_1_n_n.contr.Idx) :
    (Cert.ReferenceIdeal.dot_S50000x128_S128x1_S50000x1_1_0_0_1_n_n.rhsIdx i q 1).val = (i 1).val := by
  unfold DotDims.rhsIdx
  rw [dif_neg (show ¬(1 : Fin Cert.ReferenceIdeal.S128x1.rank) ∈ Cert.ReferenceIdeal.dot_S50000x128_S128x1_S50000x1_1_0_0_1_n_n.rhsBatch by decide), dif_pos (show (1 : Fin Cert.ReferenceIdeal.S128x1.rank) ∈ Cert.ReferenceIdeal.dot_S50000x128_S128x1_S50000x1_1_0_0_1_n_n.rhsNonContracting by decide)]
  rfl

/-- The reference's product at row `r`: the sum over the 128 features. -/
theorem head4_dot_ref (h : FVec Ideal Cert.ReferenceIdeal.S50000x128 .f32) (w : FVec Ideal Cert.ReferenceIdeal.S128x1 .f32) (r : Fin 50000) (q : Fin 1) :
    Host.dotGeneral Cert.ReferenceIdeal.dot_S50000x128_S128x1_S50000x1_1_0_0_1_n_n none h w (ix2 r q)
      = ∑ k : Fin 128, h (ix2 r k) * w (ix2 k q) := by
  simp only [Host.dotGeneral]
  rw [Ideal.dotGeneral_apply, ← Equiv.sum_comp (contrEquiv1 Cert.ReferenceIdeal.dot_S50000x128_S128x1_S50000x1_1_0_0_1_n_n 128 rfl rfl).symm]
  refine Finset.sum_congr rfl fun k _ => ?_
  have hk := contrEquiv1_symm_val Cert.ReferenceIdeal.dot_S50000x128_S128x1_S50000x1_1_0_0_1_n_n 128 rfl rfl k
  have el : Cert.ReferenceIdeal.dot_S50000x128_S128x1_S50000x1_1_0_0_1_n_n.lhsIdx (ix2 r q) ((contrEquiv1 Cert.ReferenceIdeal.dot_S50000x128_S128x1_S50000x1_1_0_0_1_n_n 128 rfl rfl).symm k) = ix2 r k := funext fun a => Fin.ext (by
    match a with
    | ⟨0, _⟩ => exact head4_lhs_ref_0 _ _
    | ⟨1, _⟩ => exact (head4_lhs_ref_1 _ _).trans hk)
  have er : Cert.ReferenceIdeal.dot_S50000x128_S128x1_S50000x1_1_0_0_1_n_n.rhsIdx (ix2 r q) ((contrEquiv1 Cert.ReferenceIdeal.dot_S50000x128_S128x1_S50000x1_1_0_0_1_n_n 128 rfl rfl).symm k) = ix2 k q := funext fun a => Fin.ext (by
    match a with
    | ⟨0, _⟩ => exact (head4_rhs_ref_0 _ _).trans hk
    | ⟨1, _⟩ => exact head4_rhs_ref_1 _ _)
  rw [el, er]

/-- The reference's bias, broadcast to one row of one column and then down all rows, reads the bias's one entry. -/
theorem head4_bias_ref (b : FVec Ideal Cert.ReferenceIdeal.S1 .f32)
    (h : Cert.ReferenceIdeal.S1.BroadcastsInDim Cert.ReferenceIdeal.S1x1 ![1])
    (h' : Cert.ReferenceIdeal.S1x1.BroadcastsInDim Cert.ReferenceIdeal.S50000x1 ![0, 1]) (i : Cert.ReferenceIdeal.S50000x1.Idx) :
    broadcastInDim Cert.ReferenceIdeal.S50000x1 ![0, 1] h' (broadcastInDim Cert.ReferenceIdeal.S1x1 ![1] h b) i = b (ix1 (0 : Fin 1)) := by
  rw [broadcastInDim_apply _ h' _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h b _ (ix1 (0 : Fin 1)) (fun a => match a with
    | ⟨0, _⟩ => by show 0 = if (1 : Nat) = 1 then 0 else _; rw [if_pos rfl])

/-- The constant one, broadcast to every row. -/
theorem head4_one_ref (h : Cert.ReferenceIdeal.S_.BroadcastsInDim Cert.ReferenceIdeal.S50000x1 ![]) (i : Cert.ReferenceIdeal.S50000x1.Idx) :
    broadcastInDim Cert.ReferenceIdeal.S50000x1 ![] h (constant (F := Ideal) Cert.ReferenceIdeal.S_ .f32 0x3F800000#32) i = (1 : EReal) := by
  rw [broadcastInDim_scalar_apply]
  exact Ideal.ofBits_one_f32

/-- The reference's output layer, written out as `1 / (1 + exp (-z))`, is the logistic function of `z` row by row. -/
theorem head4_ref_eq (h : FVec Ideal S50000x128 .f32) (w : FVec Ideal S128x1 .f32) (b : FVec Ideal S1 .f32) :
    Cert.ReferenceIdeal.Stage.head (F := Ideal) h w b = head4_all h w b := by
  funext i
  obtain ⟨r, q, rfl⟩ : ∃ (r : Fin 50000) (q : Fin 1), i = ix2 r q := ⟨i 0, i 1, eq_ix2 i⟩
  obtain rfl : q = 0 := Subsingleton.elim _ _
  unfold Cert.ReferenceIdeal.Stage.head head4_all head4_row Ideal.logistic
  show Ideal.div (broadcastInDim Cert.ReferenceIdeal.S50000x1 ![] _ (constant (F := Ideal) Cert.ReferenceIdeal.S_ .f32 0x3F800000#32) (ix2 r 0))
      (broadcastInDim Cert.ReferenceIdeal.S50000x1 ![] _ (constant (F := Ideal) Cert.ReferenceIdeal.S_ .f32 0x3F800000#32) (ix2 r 0)
        + Ideal.exp (-(Host.dotGeneral (F := Ideal) Cert.ReferenceIdeal.dot_S50000x128_S128x1_S50000x1_1_0_0_1_n_n none h w (ix2 r 0)
          + broadcastInDim Cert.ReferenceIdeal.S50000x1 ![0, 1] _ (broadcastInDim Cert.ReferenceIdeal.S1x1 ![1] _ b) (ix2 r 0)))) = _
  rw [head4_one_ref, head4_dot_ref, head4_bias_ref]

variable (V : (c : Dev nD) → (b : Ref sig .tc) → Buf (Elt Ideal) ((c : Thread nD τ).loc b))

/-! ## The blocks of region 4 -/

theorem head4_hz2 : (![0, 0] : Fin 2 → Nat) = fun _ => 0 := funext fun a => by fin_cases a <;> rfl
theorem head4_hz1 : (![0] : Fin 1 → Nat) = fun _ => 0 := funext fun a => by fin_cases a <;> rfl

/-- The index maps over the grid: the activations' and the result's block index is the point along the rows and zero
    along the columns; the weight's and the bias's block is the whole array at every point. -/
theorem head4_idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The activations' block at point `t` is rows `10000 t … 10000 t + 9999` of the array. -/
theorem head4_rows_blk (c : Dev nD) (t : Fin cfg4.N) (p : Fin 10000) (k : Fin 128) (r : Fin 50000)
    (hr : r.val = t.val * 10000 + p.val) :
    (iblk4 V c 0 t : Vec Ideal S10000x128 .f32) (ix2 p k) = (V c main_v59 : FVec Ideal S50000x128 .f32) (ix2 r k) := by
  obtain ⟨e0, e1, -⟩ := head4_idx_facts t
  unfold iblk4
  rw [View.read_apply]
  show V c main_v59 _ = V c main_v59 _
  refine congrArg (V c main_v59) (funext fun a => Fin.ext ?_)
  match a with
  | ⟨0, _⟩ => show win4_0.index t (0 : Fin 2) * 10000 + 1 * p.val = r.val; rw [e0, hr]; omega
  | ⟨1, _⟩ => show win4_0.index t (1 : Fin 2) * 128 + 1 * k.val = k.val; rw [e1]; omega

/-- The weight's block at every point is the weight column. -/
theorem head4_weight_blk (c : Dev nD) (t : Fin cfg4.N) (k : Fin 128) (q : Fin 1) :
    (iblk4 V c 1 t : Vec Ideal S128x1 .f32) (ix2 k q) = (V c main_arg6 : FVec Ideal S128x1 .f32) (ix2 k q) := by
  obtain ⟨-, -, e0, e1, -⟩ := head4_idx_facts t
  unfold iblk4
  rw [View.read_apply]
  show V c main_arg6 _ = V c main_arg6 _
  refine congrArg (V c main_arg6) (funext fun a => Fin.ext ?_)
  match a with
  | ⟨0, _⟩ => show win4_1.index t (0 : Fin 2) * 128 + 1 * k.val = k.val; rw [e0]; omega
  | ⟨1, _⟩ => show win4_1.index t (1 : Fin 2) * 1 + 1 * q.val = q.val; rw [e1]; omega

/-- The bias's block at every point is the bias. -/
theorem head4_bias_arr (c : Dev nD) (t : Fin cfg4.N) (q : Fin 1) :
    (iblk4 V c 2 t : Vec Ideal S1 .f32) (ix1 q) = (V c main_arg7 : FVec Ideal S1 .f32) (ix1 q) := by
  obtain ⟨-, -, -, -, e0, -⟩ := head4_idx_facts t
  unfold iblk4
  rw [View.read_apply]
  show V c main_arg7 _ = V c main_arg7 _
  refine congrArg (V c main_arg7) (funext fun a => Fin.ext ?_)
  match a with
  | ⟨0, _⟩ => show win4_2.index t (0 : Fin 1) * 1 + 1 * q.val = q.val; rw [e0]; omega

/-! ## From the blocks to the array -/

/-- One entry of a block's payload is the output layer's entry of the array row it stands for, given that the three
    loaded blocks are the rows `10000 n …` of the activations, the weight column and the bias. -/
theorem head4_point (h : FVec Ideal S50000x128 .f32) (w : FVec Ideal S128x1 .f32) (b : FVec Ideal S1 .f32)
    (x0 : Vec Ideal S10000x128 .f32) (x1 : Vec Ideal S128x1 .f32) (x2 : Vec Ideal S1 .f32) (n : Nat)
    (h0 : ∀ (p : Fin 10000) (k : Fin 128) (r : Fin 50000), r.val = n * 10000 + p.val → x0 (ix2 p k) = h (ix2 r k))
    (h1 : ∀ (k : Fin 128) (q : Fin 1), x1 (ix2 k q) = w (ix2 k q))
    (h2 : ∀ q : Fin 1, x2 (ix1 q) = b (ix1 q))
    (y : S10000x1.Idx) (i : S50000x1.Idx) (hi : (i 0).val = n * 10000 + (y 0).val) :
    k4_pay1 (F := Ideal) x0 x1 x2 y = head4_all h w b i := by
  obtain ⟨p, q, rfl⟩ : ∃ (p : Fin 10000) (q : Fin 1), y = ix2 p q := ⟨y 0, y 1, eq_ix2 y⟩
  obtain rfl : q = 0 := Subsingleton.elim _ _
  rw [head4_pay_apply]
  unfold head4_all head4_row
  have hs : (∑ k : Fin 128, x0 (ix2 p k) * x1 (ix2 k (0 : Fin 1))) = ∑ k : Fin 128, h (ix2 (i 0) k) * w (ix2 k (0 : Fin 1)) :=
    Finset.sum_congr rfl fun k _ => by rw [h0 p k (i 0) hi, h1]
  rw [hs, h2]

/-- What point `t` writes back is block `t` of the output layer of the arrays as the region finds them. -/
theorem head4_flushed (c : Dev nD) (t : Fin cfg4.N) :
    (dat4 (F := Ideal) V c).flushed 3 t
      = ((cfg4.win 3).blk t).view.read (Elt Ideal) (head4_all (V c main_v59) (V c main_arg6) (V c main_arg7)) := by
  show (cfg4.win 3).cut (grid4.coords t) ((dat4 V c).after 3 t) = _
  rw [after4_3]
  unfold out4_3
  rw [View.canon_unit_zero head4_hz2]
  simp only [View.ld_unit_zero (S := S10000x128) head4_hz2, View.ld_unit_zero (S := S128x1) head4_hz2, View.ld_unit_zero (S := S1) head4_hz1]
  obtain ⟨-, -, -, -, -, e0, e1⟩ := head4_idx_facts t
  funext j
  exact head4_point (V c main_v59) (V c main_arg6) (V c main_arg7) (iblk4 V c 0 t) (iblk4 V c 1 t) (iblk4 V c 2 t) t.val
    (fun p k r hr => head4_rows_blk V c t p k r hr) (head4_weight_blk V c t) (head4_bias_arr V c t)
    ((cfg4.win 3).xinj (grid4.coords t) j) (((cfg4.win 3).blk t).view.emb j)
    (by show win4_3.index t (0 : Fin 2) * 10000 + 1 * (j 0).val = t.val * 10000 + (j 0).val; rw [e0]; omega)

/-- An index of the result array is in point `t`'s block iff each coordinate is in the block's range on its axis. -/
theorem head4_mem_blk (t : Fin cfg4.N) (i : S50000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v60).slice (win4_3.rect t)).set ↔ _
  rw [View.set_slice_whole, Rect.mem_set_unit]
  exact Iff.rfl

/-- Every row of the result is written by the point `row / 10000`. -/
theorem head4_cover (i : S50000x1.Idx) :
    ∃ t : Fin cfg4.N, (cfg4.win 3).flush t = true ∧ i ∈ ((cfg4.win 3).blk t).view.set := by
  have hi0 : (i 0).val < 50000 := (i 0).isLt
  have hi1 : (i 1).val < 1 := (i 1).isLt
  have hN : cfg4.N = 5 := N_4
  refine ⟨⟨(i 0).val / 10000, by rw [hN]; omega⟩, flush4_3 _, ?_⟩
  obtain ⟨-, -, -, -, -, e0, e1⟩ := head4_idx_facts ⟨(i 0).val / 10000, by rw [hN]; omega⟩
  rw [head4_mem_blk]
  intro a
  match a with
  | ⟨0, _⟩ =>
    show win4_3.index _ (0 : Fin 2) * 10000 ≤ (i 0).val ∧ (i 0).val < win4_3.index _ (0 : Fin 2) * 10000 + 10000
    rw [e0]; show (i 0).val / 10000 * 10000 ≤ (i 0).val ∧ (i 0).val < (i 0).val / 10000 * 10000 + 10000; omega
  | ⟨1, _⟩ =>
    show win4_3.index _ (1 : Fin 2) * 1 ≤ (i 1).val ∧ (i 1).val < win4_3.index _ (1 : Fin 2) * 1 + 1
    rw [e1]; omega

/-- After region 4 the result array holds the reference's output layer of the arrays the region found. -/
theorem head4 (c : Dev nD) :
    (dat4 (F := Ideal) V c).arrAt 3 cfg4.N = Cert.ReferenceIdeal.Stage.head (F := Ideal) (V c main_v59) (V c main_arg6) (V c main_arg7) :=
  ((dat4 V c).arrAt_eq_of_cover 3 (head4_all (V c main_v59) (V c main_arg6) (V c main_arg7))
    (fun t _ => head4_flushed V c t) head4_cover).trans (head4_ref_eq (V c main_v59) (V c main_arg6) (V c main_arg7)).symm

end Cert.KernelIdeal.Val

end
-- ==== Proof.Thread.lean ====
import proofs.«124141_j29609504539480_1_alg».proof.Proof.Keep
import proofs.«124141_j29609504539480_1_alg».proof.Proof.Host
import proofs.«124141_j29609504539480_1_alg».proof.Proof.Dense0
import proofs.«124141_j29609504539480_1_alg».proof.Proof.Relu1
import proofs.«124141_j29609504539480_1_alg».proof.Proof.Dense2
import proofs.«124141_j29609504539480_1_alg».proof.Proof.Relu3
import proofs.«124141_j29609504539480_1_alg».proof.Proof.Head4

/-!
The result buffer after the whole program is the network of the reference's stages applied to the arguments.

Each boundary of the program is read in turn: a region's output array is its stage of the arrays the region found
on entry; a host stretch's result is its stage of the buffers it reads; every other buffer a stage reads (a weight, a
bias, the edge arrays) holds what it held when it was last written, the arguments what they held at launch.
-/

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem result (c : Dev nD) :
    W10 m ρ c (Proc.devRef .tc main_v60)
      = Cert.ReferenceIdeal.Stage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  -- layer 1: dense, aggregate, bias and rectifier
  have h30 : W4 m ρ c (Proc.devRef .tc main_v30) = Cert.ReferenceIdeal.Stage.dense (m ((c : Thread nD τ).loc main_arg0)) (m ((c : Thread nD τ).loc main_arg2)) := by
    refine (W4_arr m ρ c 2).trans ((dense0 (V3 m ρ) c).trans ?_)
    show Cert.ReferenceIdeal.Stage.dense (W3 m ρ c (Proc.devRef .tc main_arg0)) (W3 m ρ c (Proc.devRef .tc main_arg2)) = _
    rw [W3_arg0, W3_arg2]
  have h43 : W5 m ρ c (Proc.devRef .tc main_v43) = Cert.ReferenceIdeal.Stage.agg (Cert.ReferenceIdeal.Stage.dense (m ((c : Thread nD τ).loc main_arg0)) (m ((c : Thread nD τ).loc main_arg2))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1))) := by
    rw [agg1, h30, W4_v3, W4_v6, W4_v29, prep_src, prep_dst, prep_norm]
  have h44 : W6 m ρ c (Proc.devRef .tc main_v44) = Cert.ReferenceIdeal.Stage.biasRelu (Cert.ReferenceIdeal.Stage.agg (Cert.ReferenceIdeal.Stage.dense (m ((c : Thread nD τ).loc main_arg0)) (m ((c : Thread nD τ).loc main_arg2))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1)))) (m ((c : Thread nD τ).loc main_arg3)) := by
    refine (W6_arr m ρ c 2).trans ((relu1 (V5 m ρ) c).trans ?_)
    show Cert.ReferenceIdeal.Stage.biasRelu (W5 m ρ c (Proc.devRef .tc main_v43)) (W5 m ρ c (Proc.devRef .tc main_arg3)) = _
    rw [h43, W5_arg3]
  -- layer 2
  have h45 : W7 m ρ c (Proc.devRef .tc main_v45) = Cert.ReferenceIdeal.Stage.dense (Cert.ReferenceIdeal.Stage.biasRelu (Cert.ReferenceIdeal.Stage.agg (Cert.ReferenceIdeal.Stage.dense (m ((c : Thread nD τ).loc main_arg0)) (m ((c : Thread nD τ).loc main_arg2))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1)))) (m ((c : Thread nD τ).loc main_arg3))) (m ((c : Thread nD τ).loc main_arg4)) := by
    refine (W7_arr m ρ c 2).trans ((dense2 (V6 m ρ) c).trans ?_)
    show Cert.ReferenceIdeal.Stage.dense (W6 m ρ c (Proc.devRef .tc main_v44)) (W6 m ρ c (Proc.devRef .tc main_arg4)) = _
    rw [h44, W6_arg4]
  have h58 : W8 m ρ c (Proc.devRef .tc main_v58) = Cert.ReferenceIdeal.Stage.agg (Cert.ReferenceIdeal.Stage.dense (Cert.ReferenceIdeal.Stage.biasRelu (Cert.ReferenceIdeal.Stage.agg (Cert.ReferenceIdeal.Stage.dense (m ((c : Thread nD τ).loc main_arg0)) (m ((c : Thread nD τ).loc main_arg2))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1)))) (m ((c : Thread nD τ).loc main_arg3))) (m ((c : Thread nD τ).loc main_arg4))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1))) := by
    rw [agg2, h45, W7_v3, W7_v6, W7_v29, prep_src, prep_dst, prep_norm]
  have h59 : W9 m ρ c (Proc.devRef .tc main_v59) = Cert.ReferenceIdeal.Stage.biasRelu (Cert.ReferenceIdeal.Stage.agg (Cert.ReferenceIdeal.Stage.dense (Cert.ReferenceIdeal.Stage.biasRelu (Cert.ReferenceIdeal.Stage.agg (Cert.ReferenceIdeal.Stage.dense (m ((c : Thread nD τ).loc main_arg0)) (m ((c : Thread nD τ).loc main_arg2))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1)))) (m ((c : Thread nD τ).loc main_arg3))) (m ((c : Thread nD τ).loc main_arg4))) (Cert.ReferenceIdeal.Stage.src (m ((c : Thread nD τ).loc main_arg1))) (Cert.ReferenceIdeal.Stage.dst (m ((c : Thread nD τ).loc main_arg1))) (Cert.ReferenceIdeal.Stage.norm (m ((c : Thread nD τ).loc main_arg1)))) (m ((c : Thread nD τ).loc main_arg5)) := by
    refine (W9_arr m ρ c 2).trans ((relu3 (V8 m ρ) c).trans ?_)
    show Cert.ReferenceIdeal.Stage.biasRelu (W8 m ρ c (Proc.devRef .tc main_v58)) (W8 m ρ c (Proc.devRef .tc main_arg5)) = _
    rw [h58, W8_arg5]
  -- the output layer
  refine (W10_arr m ρ c 3).trans ((head4 (V9 m ρ) c).trans ?_)
  show Cert.ReferenceIdeal.Stage.head (W9 m ρ c (Proc.devRef .tc main_v59)) (W9 m ρ c (Proc.devRef .tc main_arg6)) (W9 m ρ c (Proc.devRef .tc main_arg7)) = _
  rw [h59, W9_arg6, W9_arg7]
  rfl

end Cert.KernelIdeal.Val

end
-- ==== Proof.lean ====
/- The certificate of a two-layer graph-convolution network against its plain reference.

   The kernel's program is five kernel regions among host stretches: a dense product, an aggregation over the edges
   (on the host), a bias and rectifier, the same three again, and an output layer (dense product with one column, bias,
   logistic function).  The reference is the same network in host operations only.  Read over the extended reals the
   two compute one function of the arguments:
   * a region's five row blocks of a product are the rows of the whole product (a finite sum of the same terms);
   * the host stretches between the regions are the reference's own operations, and the reference's run, read stretch
     by stretch, is the composition of the same stages;
   * the kernel's logistic function is `1 / (1 + exp (-z))`, the expression the reference spells out.
   No law used needs the inputs finite, so the precondition is never opened.  The idealization rewrote nothing, so
   the kernel's idealized program is its printed program read at the ideal instance. -/
import proofs.«124141_j29609504539480_1_alg».proof.Defs
import proofs.«124141_j29609504539480_1_alg».proof.Proof.Gen.Kernel
import proofs.«124141_j29609504539480_1_alg».proof.Proof.Gen.Kernel.Frame
import proofs.«124141_j29609504539480_1_alg».proof.Proof.Gen.KernelIdeal
import proofs.«124141_j29609504539480_1_alg».proof.Proof.Gen.KernelIdeal.Frame
import proofs.«124141_j29609504539480_1_alg».proof.Proof.Gen.ReferenceIdeal
import proofs.«124141_j29609504539480_1_alg».proof.Proof.Gen.Pre_finite_inputs
import proofs.«124141_j29609504539480_1_alg».proof.Proof.RunVal
import proofs.«124141_j29609504539480_1_alg».proof.Proof.RefNet
import proofs.«124141_j29609504539480_1_alg».proof.Proof.Stages
import proofs.«124141_j29609504539480_1_alg».proof.Proof.Thread
import Idealize.ShloMosaic.Adequacy
import Idealize.ShloMosaic.Init

noncomputable section

namespace Cert.Proof

open Idealize.ShloMosaic Idealize.ShloMosaic.TcCoe Idealize.SL.Sem

/-- The kernel's program runs and leaves its arguments, at the word-level instance. -/
theorem frame_k : Cert.frame_Kernel := fun m ρ _ => Cert.Kernel.Gen.frame m ρ

/-- The same at the ideal instance. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RefNet.run (F := Ideal) m ρ)

/-- Both programs end with the network of the stages applied to the arguments. -/
theorem algebraic : Cert.algebraic_KernelIdeal_ReferenceIdeal := by
  intro m ρ m' ρ' _ hagree
  refine ⟨fun c => Cert.ReferenceIdeal.Stage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.result m ρ c), (h c).2⟩)
      (Cert.KernelIdeal.RunVal.run_result (F := Ideal) m ρ)
  · refine (θ_run Cert.ReferenceIdeal.defs _ _).mono (fun r h c => ⟨(h c).1.trans ?_, (h c).2⟩)
      (Cert.ReferenceIdeal.RefNet.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
